-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x128 : Shape := ⟨2, ![640000, 128]⟩
abbrev S640000 : Shape := ⟨1, ![640000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S640000 : S_.BroadcastsInDim S640000 (![] : Fin 0 → Fin S640000.rank)
  reducesTo_S640000_S_d0 : S640000.ReducesTo [0] S_

variable [Facts]

def fn_part5 {F : FTy → Type} [FloatOps F] (main_arg2 : IVec S640000 32) (main_arg3 : IVec S640000 32) (main_v83 : IVec S_ 1) (main_v84 : IVec S640000 32) : IVec S_ 1 :=
  let main_v85 : IVec S640000 1 := cmpi .sge main_arg2 main_v84
  let main_c_33 : IVec S_ 32 := constantI S_ 32 10000#32
  let main_v86 : IVec S640000 32 := broadcastInDim S640000 ![] bcast_S_S640000 main_c_33
  let main_v87 : IVec S640000 1 := cmpi .slt main_arg2 main_v86
  let main_v88 : IVec S640000 1 := andi main_v85 main_v87
  let main_c_34 : IVec S_ 1 := constantI S_ 1 1#1
  let main_v89 : IVec S_ 1 := (fun x v => Host.reduce IntOp.andi x v reducesTo_S640000_S_d0 h_S_) main_v88 main_c_34
  let main_v90 : IVec S_ 1 := andi main_v83 main_v89
  let main_c_35 : IVec S_ 32 := constantI S_ 32 0#32
  let main_v91 : IVec S640000 32 := broadcastInDim S640000 ![] bcast_S_S640000 main_c_35
  let main_v92 : IVec S640000 1 := cmpi .sge main_arg3 main_v91
  let main_c_36 : IVec S_ 32 := constantI S_ 32 10000#32
  let main_v93 : IVec S640000 32 := broadcastInDim S640000 ![] bcast_S_S640000 main_c_36
  let main_v94 : IVec S640000 1 := cmpi .slt main_arg3 main_v93
  let main_v95 : IVec S640000 1 := andi main_v92 main_v94
  let main_c_37 : IVec S_ 1 := constantI S_ 1 1#1
  let main_v96 : IVec S_ 1 := (fun x v => Host.reduce IntOp.andi x v reducesTo_S640000_S_d0 h_S_) main_v95 main_c_37
  let main_v97 : IVec S_ 1 := andi main_v90 main_v96
  main_v97

def fn_part4 {F : FTy → Type} [FloatOps F] (main_arg2 : IVec S640000 32) (main_arg3 : IVec S640000 32) (main_arg16 : FVec F S128x128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_c_32 : IVec S_ 32 := constantI S_ 32 0#32
  let main_v84 : IVec S640000 32 := broadcastInDim S640000 ![] bcast_S_S640000 main_c_32
  fn_part5 (F := F) main_arg2 main_arg3 main_v83 main_v84

def fn_part3 {F : FTy → Type} [FloatOps F] (main_arg2 : IVec S640000 32) (main_arg3 : IVec S640000 32) (main_arg13 : FVec F S128 .f32) (main_arg14 : FVec F S128x128 .f32) (main_arg15 : FVec F S128 .f32) (main_arg16 : FVec F S128x128 .f32) (main_arg17 : FVec F S128 .f32) (main_arg18 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg3 main_arg16 main_arg17 main_arg18 main_v63 main_v67

def fn_part2 {F : FTy → Type} [FloatOps F] (main_arg2 : IVec S640000 32) (main_arg3 : IVec S640000 32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg3 main_arg13 main_arg14 main_arg15 main_arg16 main_arg17 main_arg18 main_v48 main_v49 main_v50

def fn_part1 {F : FTy → Type} [FloatOps F] (main_arg2 : IVec S640000 32) (main_arg3 : IVec S640000 32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_arg18 main_v33

def fn {F : FTy → Type} [FloatOps F] (main_arg0 : FVec F S10000x128 .f32) (main_arg1 : FVec F S640000x128 .f32) (main_arg2 : IVec S640000 32) (main_arg3 : IVec S640000 32) (main_arg4 : FVec F S384x128 .f32) (main_arg5 : FVec F S128 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_arg14 main_arg15 main_arg16 main_arg17 main_arg18 main_v13 main_v16
-- ==== Kernel.lean ====
abbrev S10000x128 : Shape := ⟨2, ![10000, 128]⟩
abbrev S640000x128 : Shape := ⟨2, ![640000, 128]⟩
abbrev S640000 : Shape := ⟨1, ![640000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S2560x128 : Shape := ⟨2, ![2560, 128]⟩
abbrev S1x128 : Shape := ⟨2, ![1, 128]⟩
abbrev S1000x128 : Shape := ⟨2, ![1000, 128]⟩
abbrev S1000 : Shape := ⟨1, ![1000]⟩
abbrev S1000x1 : Shape := ⟨2, ![1000, 1]⟩

abbrev nBuf : Space → Nat
  | .hbm => 83
  | .vmem => 32
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S1, .i32⟩
  | .hbm, ⟨28, _⟩ => ⟨S_, .i32⟩
  | .hbm, ⟨29, _⟩ => ⟨S640000x1, .i32⟩
  | .hbm, ⟨30, _⟩ => ⟨S640000x1, .i1⟩
  | .hbm, ⟨31, _⟩ => ⟨S1x1, .i32⟩
  | .hbm, ⟨32, _⟩ => ⟨S640000x1, .i32⟩
  | .hbm, ⟨33, _⟩ => ⟨S640000x1, .i1⟩
  | .hbm, ⟨34, _⟩ => ⟨S640000x1, .i1⟩
  | .hbm, ⟨35, _⟩ => ⟨S_, .i1⟩
  | .hbm, ⟨36, _⟩ => ⟨S640000, .i1⟩
  | .hbm, ⟨37, _⟩ => ⟨S640000x128, .f32⟩
  | .hbm, ⟨38, _⟩ => ⟨S640000x128, .i1⟩
  | .hbm, ⟨39, _⟩ => ⟨S_, .f32⟩
  | .hbm, ⟨40, _⟩ => ⟨S640000x128, .f32⟩
  | .hbm, ⟨41, _⟩ => ⟨S640000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S1, .i32⟩
  | .hbm, ⟨51, _⟩ => ⟨S_, .i32⟩
  | .hbm, ⟨52, _⟩ => ⟨S640000x1, .i32⟩
  | .hbm, ⟨53, _⟩ => ⟨S640000x1, .i1⟩
  | .hbm, ⟨54, _⟩ => ⟨S1x1, .i32⟩
  | .hbm, ⟨55, _⟩ => ⟨S640000x1, .i32⟩
  | .hbm, ⟨56, _⟩ => ⟨S640000x1, .i1⟩
  | .hbm, ⟨57, _⟩ => ⟨S640000x1, .i1⟩
  | .hbm, ⟨58, _⟩ => ⟨S_, .i1⟩
  | .hbm, ⟨59, _⟩ => ⟨S640000, .i1⟩
  | .hbm, ⟨60, _⟩ => ⟨S640000x128, .f32⟩
  | .hbm, ⟨61, _⟩ => ⟨S640000x128, .i1⟩
  | .hbm, ⟨62, _⟩ => ⟨S_, .f32⟩
  | .hbm, ⟨63, _⟩ => ⟨S640000x128, .f32⟩
  | .hbm, ⟨64, _⟩ => ⟨S640000x128, .f32⟩
  | .hbm, ⟨65, _⟩ => ⟨S384x128, .bf16⟩
  | .hbm, ⟨66, _⟩ => ⟨S128x128, .bf16⟩
  | .hbm, ⟨67, _⟩ => ⟨S128x128, .bf16⟩
  | .hbm, ⟨68, _⟩ => ⟨S128x128, .bf16⟩
  | .hbm, ⟨69, _⟩ => ⟨S128x128, .bf16⟩
  | .hbm, ⟨70, _⟩ => ⟨S128x128, .bf16⟩
  | .hbm, ⟨71, _⟩ => ⟨S640000x128, .f32⟩
  | .hbm, ⟨72, _⟩ => ⟨S_, .f32⟩
  | .hbm, ⟨73, _⟩ => ⟨S10000x128, .f32⟩
  | .hbm, ⟨74, _⟩ => ⟨S640000x1, .i32⟩
  | .hbm, ⟨75, _⟩ => ⟨S10000x128, .f32⟩
  | .hbm, ⟨76, _⟩ => ⟨S256x128, .bf16⟩
  | .hbm, ⟨77, _⟩ => ⟨S128x128, .bf16⟩
  | .hbm, ⟨78, _⟩ => ⟨S128x128, .bf16⟩
  | .hbm, ⟨79, _⟩ => ⟨S128x128, .bf16⟩
  | .hbm, ⟨80, _⟩ => ⟨S128x128, .bf16⟩
  | .hbm, ⟨81, _⟩ => ⟨S128x128, .bf16⟩
  | .hbm, ⟨82, _⟩ => ⟨S10000x128, .f32⟩
  | .local _ .vmem, ⟨0, _⟩ => ⟨S2560x128, .f32⟩
  | .local _ .vmem, ⟨1, _⟩ => ⟨S2560x128, .f32⟩
  | .local _ .vmem, ⟨2, _⟩ => ⟨S2560x128, .f32⟩
  | .local _ .vmem, ⟨3, _⟩ => ⟨S2560x128, .f32⟩
  | .local _ .vmem, ⟨4, _⟩ => ⟨S2560x128, .f32⟩
  | .local _ .vmem, ⟨5, _⟩ => ⟨S2560x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S128x128, .bf16⟩
  | .local _ .vmem, ⟨13, _⟩ => ⟨S128, .f32⟩
  | .local _ .vmem, ⟨14, _⟩ => ⟨S2560x128, .f32⟩
  | .local _ .vmem, ⟨15, _⟩ => ⟨S2560x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S128x128, .bf16⟩
  | .local _ .vmem, ⟨21, _⟩ => ⟨S128x128, .bf16⟩
  | .local _ .vmem, ⟨22, _⟩ => ⟨S128, .f32⟩
  | .local _ .vmem, ⟨23, _⟩ => ⟨S128x128, .bf16⟩
  | .local _ .vmem, ⟨24, _⟩ => ⟨S128, .f32⟩
  | .local _ .vmem, ⟨25, _⟩ => ⟨S128x128, .bf16⟩
  | .local _ .vmem, ⟨26, _⟩ => ⟨S128, .f32⟩
  | .local _ .vmem, ⟨27, _⟩ => ⟨S128x128, .bf16⟩
  | .local _ .vmem, ⟨28, _⟩ => ⟨S128, .f32⟩
  | .local _ .vmem, ⟨29, _⟩ => ⟨S128, .f32⟩
  | .local _ .vmem, ⟨30, _⟩ => ⟨S1000x128, .f32⟩
  | .local _ .vmem, ⟨31, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v0 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v1 : Ref sig .tc := ⟨.hbm, 64, rfl⟩
abbrev main_v2 : Ref sig .tc := ⟨.hbm, 65, rfl⟩
abbrev main_v3 : Ref sig .tc := ⟨.hbm, 66, rfl⟩
abbrev main_v4 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_v8 : Ref sig .tc := ⟨.hbm, 71, rfl⟩
abbrev main_cst : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg12_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem12_1 : DmaSem sig := 31

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2560x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bitsLt_bf16_f32 : FTy.bits .bf16 < FTy.bits .f32
  slices_S384x128_S128x128_0_0 : S384x128.Slices ![0, 0] S128x128
  slices_S384x128_S128x128_128_0 : S384x128.Slices ![128, 0] S128x128
  slices_S384x128_S128x128_256_0 : S384x128.Slices ![256, 0] S128x128
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2560x128 : S1x128.Broadcasts S2560x128
  bcast_S_S10000x128 : S_.BroadcastsInDim S10000x128 (![] : Fin 0 → Fin S10000x128.rank)
  slices_S256x128_S128x128_0_0 : S256x128.Slices ![0, 0] S128x128
  slices_S256x128_S128x128_128_0 : S256x128.Slices ![128, 0] S128x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  reduces_S1000x128_S1000 : S1000x128.Reduces [1] S1000
  shapeCasts_S1000_S1000x1 : S1000.ShapeCasts S1000x1
  broadcasts_S1000x1_S1000x128 : S1000x1.Broadcasts S1000x128
  gather_S10000x128_S640000x1_S640000x128_1_0_n_n_0_1_1128_wf : GatherDims.WF S10000x128 S640000x1 S640000x128 [1] [0] [] [0] [] 1 ![1, 128]
  dot_S2560x128_S128x128_S2560x128_1_0_0_1_n_n_wf : DotDims.WF S2560x128 S128x128 S2560x128 [1] [0] [0] [1] [] []
  scatter_S10000x128_S640000x1_S640000x128_1_0_0_1_wf : ScatterDims.WF S10000x128 S640000x1 S640000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x128.size a ≤ S640000x128.size a
  hwx0_0 : ∀ i : grid0.Coords, EltTy.bits .f32 = 32 ∨ (Rect.block (s := S640000x128) S2560x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x128.size a ≤ S640000x128.size a
  hwx0_1 : ∀ i : grid0.Coords, EltTy.bits .f32 = 32 ∨ (Rect.block (s := S640000x128) S2560x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x128.size a ≤ S640000x128.size a
  hwx0_2 : ∀ i : grid0.Coords, EltTy.bits .f32 = 32 ∨ (Rect.block (s := S640000x128) S2560x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2560x128.size a ≤ S640000x128.size a
  hwx0_11 : ∀ i : grid0.Coords, EltTy.bits .f32 = 32 ∨ (Rect.block (s := S640000x128) S2560x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S10000x128.size a
  hwx1_1 : ∀ i : grid1.Coords, EltTy.bits .f32 = 32 ∨ (Rect.block (s := S10000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .bf16 = 32 ∨ (Rect.block (s := S128x128) S128x128.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1000x128.size a ≤ S10000x128.size a
  hwx1_12 : ∀ i : grid1.Coords, EltTy.bits .f32 = 32 ∨ (Rect.block (s := S10000x128) S1000x128.size (cc1_transform_12 i) (hinb1_12 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v0) S2560x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2560x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2560x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S2560x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v17) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg17) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg18) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v18) S1000x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000x128 : Shape := ⟨2, ![640000, 128]⟩
abbrev S640000 : Shape := ⟨1, ![640000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S10000x256 : Shape := ⟨2, ![10000, 256]⟩
abbrev S10000 : Shape := ⟨1, ![10000]⟩
abbrev S10000x1 : Shape := ⟨2, ![10000, 1]⟩

abbrev nBuf : Space → Nat
  | .hbm => 110
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .f32⟩
  | .hbm, ⟨37, _⟩ => ⟨S640000x384, .f32⟩
  | .hbm, ⟨38, _⟩ => ⟨S640000x128, .f32⟩
  | .hbm, ⟨39, _⟩ => ⟨S1x128, .f32⟩
  | .hbm, ⟨40, _⟩ => ⟨S640000x128, .f32⟩
  | .hbm, ⟨41, _⟩ => ⟨S640000x128, .f32⟩
  | .hbm, ⟨42, _⟩ => ⟨S_, .f32⟩
  | .hbm, ⟨43, _⟩ => ⟨S640000x128, .f32⟩
  | .hbm, ⟨44, _⟩ => ⟨S640000x128, .f32⟩
  | .hbm, ⟨45, _⟩ => ⟨S640000x128, .f32⟩
  | .hbm, ⟨46, _⟩ => ⟨S1x128, .f32⟩
  | .hbm, ⟨47, _⟩ => ⟨S640000x128, .f32⟩
  | .hbm, ⟨48, _⟩ => ⟨S640000x128, .f32⟩
  | .hbm, ⟨49, _⟩ => ⟨S_, .f32⟩
  | .hbm, ⟨50, _⟩ => ⟨S640000x128, .f32⟩
  | .hbm, ⟨51, _⟩ => ⟨S640000x128, .f32⟩
  | .hbm, ⟨52, _⟩ => ⟨S640000x128, .f32⟩
  | .hbm, ⟨53, _⟩ => ⟨S1x128, .f32⟩
  | .hbm, ⟨54, _⟩ => ⟨S640000x128, .f32⟩
  | .hbm, ⟨55, _⟩ => ⟨S640000x128, .f32⟩
  | .hbm, ⟨56, _⟩ => ⟨S_, .f32⟩
  | .hbm, ⟨57, _⟩ => ⟨S10000x128, .f32⟩
  | .hbm, ⟨58, _⟩ => ⟨S640000x1, .i32⟩
  | .hbm, ⟨59, _⟩ => ⟨S10000x128, .f32⟩
  | .hbm, ⟨60, _⟩ => ⟨S10000x256, .f32⟩
  | .hbm, ⟨61, _⟩ => ⟨S10000x128, .f32⟩
  | .hbm, ⟨62, _⟩ => ⟨S1x128, .f32⟩
  | .hbm, ⟨63, _⟩ => ⟨S10000x128, .f32⟩
  | .hbm, ⟨64, _⟩ => ⟨S10000x128, .f32⟩
  | .hbm, ⟨65, _⟩ => ⟨S_, .f32⟩
  | .hbm, ⟨66, _⟩ => ⟨S10000x128, .f32⟩
  | .hbm, ⟨67, _⟩ => ⟨S10000x128, .f32⟩
  | .hbm, ⟨68, _⟩ => ⟨S10000x128, .f32⟩
  | .hbm, ⟨69, _⟩ => ⟨S1x128, .f32⟩
  | .hbm, ⟨70, _⟩ => ⟨S10000x128, .f32⟩
  | .hbm, ⟨71, _⟩ => ⟨S10000x128, .f32⟩
  | .hbm, ⟨72, _⟩ => ⟨S_, .f32⟩
  | .hbm, ⟨73, _⟩ => ⟨S10000x128, .f32⟩
  | .hbm, ⟨74, _⟩ => ⟨S10000x128, .f32⟩
  | .hbm, ⟨75, _⟩ => ⟨S10000x128, .f32⟩
  | .hbm, ⟨76, _⟩ => ⟨S1x128, .f32⟩
  | .hbm, ⟨77, _⟩ => ⟨S10000x128, .f32⟩
  | .hbm, ⟨78, _⟩ => ⟨S10000x128, .f32⟩
  | .hbm, ⟨79, _⟩ => ⟨S10000x128, .f32⟩
  | .hbm, ⟨80, _⟩ => ⟨S10000x128, .f32⟩
  | .hbm, ⟨81, _⟩ => ⟨S_, .f32⟩
  | .hbm, ⟨82, _⟩ => ⟨S10000, .f32⟩
  | .hbm, ⟨83, _⟩ => ⟨S10000x1, .f32⟩
  | .hbm, ⟨84, _⟩ => ⟨S_, .f32⟩
  | .hbm, ⟨85, _⟩ => ⟨S10000x1, .f32⟩
  | .hbm, ⟨86, _⟩ => ⟨S10000x1, .f32⟩
  | .hbm, ⟨87, _⟩ => ⟨S10000x128, .f32⟩
  | .hbm, ⟨88, _⟩ => ⟨S10000x128, .f32⟩
  | .hbm, ⟨89, _⟩ => ⟨S10000x128, .f32⟩
  | .hbm, ⟨90, _⟩ => ⟨S_, .f32⟩
  | .hbm, ⟨91, _⟩ => ⟨S10000, .f32⟩
  | .hbm, ⟨92, _⟩ => ⟨S10000x1, .f32⟩
  | .hbm, ⟨93, _⟩ => ⟨S_, .f32⟩
  | .hbm, ⟨94, _⟩ => ⟨S10000x1, .f32⟩
  | .hbm, ⟨95, _⟩ => ⟨S10000x1, .f32⟩
  | .hbm, ⟨96, _⟩ => ⟨S10000x128, .f32⟩
  | .hbm, ⟨97, _⟩ => ⟨S10000x128, .f32⟩
  | .hbm, ⟨98, _⟩ => ⟨S_, .f32⟩
  | .hbm, ⟨99, _⟩ => ⟨S10000x1, .f32⟩
  | .hbm, ⟨100, _⟩ => ⟨S10000x1, .f32⟩
  | .hbm, ⟨101, _⟩ => ⟨S10000x1, .f32⟩
  | .hbm, ⟨102, _⟩ => ⟨S10000x128, .f32⟩
  | .hbm, ⟨103, _⟩ => ⟨S10000x128, .f32⟩
  | .hbm, ⟨104, _⟩ => ⟨S1x128, .f32⟩
  | .hbm, ⟨105, _⟩ => ⟨S10000x128, .f32⟩
  | .hbm, ⟨106, _⟩ => ⟨S10000x128, .f32⟩
  | .hbm, ⟨107, _⟩ => ⟨S1x128, .f32⟩
  | .hbm, ⟨108, _⟩ => ⟨S10000x128, .f32⟩
  | .hbm, ⟨109, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call0_cst : Ref sig .tc := ⟨.hbm, 42, rfl⟩
abbrev main_call0_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_call1_cst : Ref sig .tc := ⟨.hbm, 49, rfl⟩
abbrev main_call1_v0 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call2_cst : Ref sig .tc := ⟨.hbm, 65, rfl⟩
abbrev main_call2_v0 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_call3_cst : Ref sig .tc := ⟨.hbm, 72, rfl⟩
abbrev main_call3_v0 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_3 : Ref sig .tc := ⟨.hbm, 81, rfl⟩
abbrev main_v49 : Ref sig .tc := ⟨.hbm, 82, rfl⟩
abbrev main_v50 : Ref sig .tc := ⟨.hbm, 83, rfl⟩
abbrev main_cst_4 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_5 : Ref sig .tc := ⟨.hbm, 90, rfl⟩
abbrev main_v56 : Ref sig .tc := ⟨.hbm, 91, rfl⟩
abbrev main_v57 : Ref sig .tc := ⟨.hbm, 92, rfl⟩
abbrev main_cst_6 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_7 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S10000x128 : S_.BroadcastsInDim S10000x128 (![] : Fin 0 → Fin S10000x128.rank)
  concatenates_S10000x128_S10000x128_S10000x256_d1 : Shape.Concatenates [S10000x128, S10000x128] S10000x256 1
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  dot_S640000x384_S384x128_S640000x128_1_0_0_1_n_n_wf : DotDims.WF S640000x384 S384x128 S640000x128 [1] [0] [0] [1] [] []
  dot_S640000x128_S128x128_S640000x128_1_0_0_1_n_n_wf : DotDims.WF S640000x128 S128x128 S640000x128 [1] [0] [0] [1] [] []
  scatter_S10000x128_S640000x1_S640000x128_1_0_0_1_wf : ScatterDims.WF S10000x128 S640000x1 S640000x128 [1] [0] [0] 1
  dot_S10000x256_S256x128_S10000x128_1_0_0_1_n_n_wf : DotDims.WF S10000x256 S256x128 S10000x128 [1] [0] [0] [1] [] []
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The mathematics of one message-passing step on a graph, row by row, over the extended reals.

  Every edge's message is a three-layer perceptron of the concatenation of its sender's features, its receiver's
  features and its own features; every node's new features are the layer normalisation of a linear image of its old
  features plus a three-layer perceptron of the concatenation of its old features and the sum of the messages it
  receives.  A product of a concatenated row with a matrix is the sum of the products of the pieces with the matching
  bands of rows of the matrix (`lin_cat3`, `lin_cat2`): a sum over 384 (256) positions is the sum of the sums over
  its three (two) spans of 128, which holds in any commutative additive monoid and so needs no finiteness.
-/
import Idealize.ShloMosaic.PureOps.Ideal
import Idealize.ShloMosaic.PureOps.Ideal.Laws
import Mathlib.Algebra.BigOperators.Fin

noncomputable section

namespace Cert.MsgPass

open Idealize.ShloMosaic
open scoped BigOperators

/-- A row of 128 features. -/
abbrev Row := Fin 128 → EReal
/-- A matrix taking K features to 128. -/
abbrev Mat (K : ℕ) := Fin K → Fin 128 → EReal

/-- A row of K features times a K × 128 matrix. -/
def lin {K : ℕ} (x : Fin K → EReal) (W : Mat K) : Row := fun j => ∑ k, x k * W k j

/-- The positive part, entry by entry. -/
def relu (x : Row) : Row := fun j => max (x j) 0

/-- The first layer on three pieces, each against its own band of the weight. -/
def lin3 (s r e : Row) (Ws Wr We : Mat 128) : Row := fun j => (lin s Ws j + lin r Wr j) + lin e We j

/-- The first layer on two pieces, each against its own band of the weight. -/
def lin2 (n a : Row) (Wn Wa : Mat 128) : Row := fun j => lin n Wn j + lin a Wa j

/-- What follows the first product in a three-layer perceptron: its bias and positive part, a second dense layer with
    its positive part, and a last dense layer. -/
def mlpTail (h b0 : Row) (W1 : Mat 128) (b1 : Row) (W2 : Mat 128) (b2 : Row) : Row :=
  fun j => lin (relu fun j => lin (relu fun j => h j + b0 j) W1 j + b1 j) W2 j + b2 j

/-- An edge's message from its sender's, its receiver's and its own features. -/
def msgRow (s r e : Row) (Ws Wr We : Mat 128) (b0 : Row) (W1 : Mat 128) (b1 : Row) (W2 : Mat 128) (b2 : Row) : Row :=
  mlpTail (lin3 s r e Ws Wr We) b0 W1 b1 W2 b2

/-- Layer normalisation of a row: centred by its mean, scaled by the reciprocal root of its variance plus `eps`, then
    by `ls`, and shifted by `lb`. The mean and the variance are sums divided by `c`. -/
def layerNorm (c eps : EReal) (x ls lb : Row) : Row :=
  fun j => (x j - Ideal.div (∑ k, x k) c)
      * Ideal.rsqrt (Ideal.div (∑ k, (x k - Ideal.div (∑ l, x l) c) * (x k - Ideal.div (∑ l, x l) c)) c + eps) * ls j
    + lb j

/-- A node's new features from its old ones `n` and the sum `a` of its incoming messages. -/
def nodeRow (c eps : EReal) (n a : Row) (Wn Wa : Mat 128) (b0 : Row) (W1 : Mat 128) (b1 : Row) (W2 : Mat 128) (b2 : Row)
    (Wres : Mat 128) (ls lb : Row) : Row :=
  layerNorm c eps (fun j => lin n Wres j + mlpTail (lin2 n a Wn Wa) b0 W1 b1 W2 b2 j) ls lb

/-- Three rows laid end to end. -/
def cat3 (s r e : Row) : Fin 384 → EReal := fun k =>
  if h : k.val < 128 then s ⟨k.val, h⟩
  else if h2 : k.val < 256 then r ⟨k.val - 128, by omega⟩ else e ⟨k.val - 256, by have := k.isLt; omega⟩

/-- Two rows laid end to end. -/
def cat2 (n a : Row) : Fin 256 → EReal := fun k =>
  if h : k.val < 128 then n ⟨k.val, h⟩ else a ⟨k.val - 128, by have := k.isLt; omega⟩

/-- A sum over 256 positions is the sum over the first 128 plus the sum over the last 128. -/
theorem sum_256 (f : Fin 256 → EReal) :
    ∑ k, f k = (∑ k : Fin 128, f ⟨k.val, by omega⟩) + ∑ k : Fin 128, f ⟨128 + k.val, by omega⟩ := by
  rw [show (∑ k : Fin 256, f k) = ∑ k : Fin (128 + 128), f k from rfl, Fin.sum_univ_add]
  rfl

/-- A sum over 384 positions is the sum of the sums over its three spans of 128. -/
theorem sum_384 (f : Fin 384 → EReal) :
    ∑ k, f k = ((∑ k : Fin 128, f ⟨k.val, by omega⟩) + ∑ k : Fin 128, f ⟨128 + k.val, by omega⟩)
      + ∑ k : Fin 128, f ⟨256 + k.val, by omega⟩ := by
  rw [show (∑ k : Fin 384, f k) = ∑ k : Fin (256 + 128), f k from rfl, Fin.sum_univ_add]
  rw [show (∑ k : Fin 256, f (Fin.castAdd 128 k)) = ∑ k : Fin 256, (fun k : Fin 256 => f ⟨k.val, by omega⟩) k from rfl, sum_256]
  rfl

/-- The concatenation of three rows against a 384-row matrix is the three pieces against its three bands. -/
theorem lin_cat3 (s r e : Row) (W : Mat 384) (j : Fin 128) :
    lin (cat3 s r e) W j = lin3 s r e (fun k => W ⟨k.val, by omega⟩) (fun k => W ⟨128 + k.val, by omega⟩)
      (fun k => W ⟨256 + k.val, by omega⟩) j := by
  unfold lin lin3 lin
  rw [sum_384]
  refine congrArg₂ (· + ·) (congrArg₂ (· + ·) ?_ ?_) ?_
  · refine Finset.sum_congr rfl fun k _ => ?_
    simp only [cat3, k.isLt, dite_true]
  · refine Finset.sum_congr rfl fun k _ => ?_
    have h1 : ¬ (128 + k.val < 128) := by omega
    have h2 : 128 + k.val < 256 := by omega
    simp only [cat3, h1, h2, dite_true, dite_false, Nat.add_sub_cancel_left]
  · refine Finset.sum_congr rfl fun k _ => ?_
    have h1 : ¬ (256 + k.val < 128) := by omega
    have h2 : ¬ (256 + k.val < 256) := by omega
    simp only [cat3, h1, h2, dite_false, Nat.add_sub_cancel_left]

/-- The concatenation of two rows against a 256-row matrix is the two pieces against its two bands. -/
theorem lin_cat2 (n a : Row) (W : Mat 256) (j : Fin 128) :
    lin (cat2 n a) W j = lin2 n a (fun k => W ⟨k.val, by omega⟩) (fun k => W ⟨128 + k.val, by omega⟩) j := by
  unfold lin lin2 lin
  rw [sum_256]
  refine congrArg₂ (· + ·) ?_ ?_
  · refine Finset.sum_congr rfl fun k _ => ?_
    simp only [cat2, k.isLt, dite_true]
  · refine Finset.sum_congr rfl fun k _ => ?_
    have h1 : ¬ (128 + k.val < 128) := by omega
    simp only [cat2, h1, dite_false, Nat.add_sub_cancel_left]

/-- The table row an index word names: the word read signed and clamped into the table's 10000 rows. -/
def rowOf (w : BitVec 32) : Fin 10000 := ⟨min w.toInt.toNat 9999, by omega⟩

end Cert.MsgPass

end
-- ==== Proof.Arrays.lean ====
/-
  The message-passing step on whole arrays: which rows of which arrays each row of the result is made from.

  Edge e's message is `msgRow` of the node table's row named by its sender word, the row named by its receiver word,
  and row e of the edge features; an index word names a row with negative words counted from the table's end (`norm`)
  and the outcome clamped into the table (`rowOf`). Node n's new features are `nodeRow` of row n of the node table
  and row n of the aggregated messages. The first-layer weights enter band by band (`band0`, `band1`, `band2`).
-/
import proofs.«405827_j62749472195028_1_alg».proof.Proof.Spec
import Idealize.ShloMosaic.Lib.ValueIdx

noncomputable section

namespace Cert.MsgPass

open Idealize.ShloMosaic Idealize.ShloMosaic.ValueIdx

/-- An n × m array over the extended reals. -/
abbrev Arr (n m : ℕ) := (⟨2, ![n, m]⟩ : Shape).Idx → EReal
/-- A length-n array over the extended reals. -/
abbrev Arr1 (n : ℕ) := (⟨1, ![n]⟩ : Shape).Idx → EReal
/-- A length-n array of 32-bit words. -/
abbrev Words (n : ℕ) := (⟨1, ![n]⟩ : Shape).Idx → BitVec 32

/-- A rank-2 array from its entries by coordinates. -/
def arr2 {α : Type} {n0 n1 : ℕ} (f : Fin n0 → Fin n1 → α) : (⟨2, ![n0, n1]⟩ : Shape).Idx → α :=
  fun i => f ⟨(i 0).val, idx2_lt0 i⟩ ⟨(i 1).val, idx2_lt1 i⟩
theorem arr2_ix2 {α : Type} {n0 n1 : ℕ} (f : Fin n0 → Fin n1 → α) (p : Fin n0) (q : Fin n1) : arr2 f (ix2 p q) = f p q := rfl

/-- A K × 128 array as a matrix. -/
def mat {K : ℕ} (x : Arr K 128) : Mat K := fun k j => x (ix2 k j)
/-- A length-128 array as a row. -/
def vec (x : Arr1 128) : Row := fun j => x (ix1 j)
/-- Row p of an n × 128 array. -/
def rowAt {n : ℕ} (x : Arr n 128) (p : Fin n) : Row := fun k => x (ix2 p k)

/-- Rows 0 to 127 of a matrix of at least 128 rows. -/
def band0 {K : ℕ} (h : 128 ≤ K) (W : Mat K) : Mat 128 := fun k => W ⟨k.val, by omega⟩
/-- Rows 128 to 255 of a matrix of at least 256 rows. -/
def band1 {K : ℕ} (h : 256 ≤ K) (W : Mat K) : Mat 128 := fun k => W ⟨128 + k.val, by omega⟩
/-- Rows 256 to 383 of a matrix of at least 384 rows. -/
def band2 {K : ℕ} (h : 384 ≤ K) (W : Mat K) : Mat 128 := fun k => W ⟨256 + k.val, by omega⟩

/-- An index word with a negative word counted from the end of the 10000-row table. -/
def norm (w : BitVec 32) : BitVec 32 := Scalar.select (IntOp.cmpi .slt w 0#32) (IntOp.addi w 10000#32) w

/-- An index word that names a row of the 10000-row table as it stands. -/
def InRange (w : BitVec 32) : Prop := IntOp.cmpi .sge w 0#32 = 1#1 ∧ IntOp.cmpi .slt w 10000#32 = 1#1

/-- The divisor of the mean and of the variance: the float 128. -/
def c128 : EReal := Ideal.ofBits .f32 0x43000000#32
/-- The variance's guard: the float nearest 1e-6. -/
def eps : EReal := Ideal.ofBits .f32 0x358637BD#32

/-- Edge e's message. -/
def msgAt (x0 : Arr 10000 128) (x1 : Arr 640000 128) (x2 x3 : Words 640000) (x4 : Arr 384 128) (x5 : Arr1 128)
    (x6 : Arr 128 128) (x7 : Arr1 128) (x8 : Arr 128 128) (x9 : Arr1 128) (e : Fin 640000) : Row :=
  msgRow (rowAt x0 (rowOf (norm (x2 (ix1 e))))) (rowAt x0 (rowOf (norm (x3 (ix1 e))))) (rowAt x1 e)
    (band0 (by omega) (mat x4)) (band1 (by omega) (mat x4)) (band2 (by omega) (mat x4)) (vec x5) (mat x6) (vec x7) (mat x8) (vec x9)

/-- All the messages. -/
def msgArr (x0 : Arr 10000 128) (x1 : Arr 640000 128) (x2 x3 : Words 640000) (x4 : Arr 384 128) (x5 : Arr1 128)
    (x6 : Arr 128 128) (x7 : Arr1 128) (x8 : Arr 128 128) (x9 : Arr1 128) : Arr 640000 128 :=
  arr2 (msgAt x0 x1 x2 x3 x4 x5 x6 x7 x8 x9)

/-- Node n's new features, from the node table and the aggregated messages. -/
def outAt (agg x0 : Arr 10000 128) (x10 : Arr 256 128) (x11 : Arr1 128) (x12 : Arr 128 128) (x13 : Arr1 128)
    (x14 : Arr 128 128) (x15 : Arr1 128) (x16 : Arr 128 128) (x17 x18 : Arr1 128) (n : Fin 10000) : Row :=
  nodeRow c128 eps (rowAt x0 n) (rowAt agg n) (band0 (by omega) (mat x10)) (band1 (by omega) (mat x10)) (vec x11) (mat x12) (vec x13)
    (mat x14) (vec x15) (mat x16) (vec x17) (vec x18)

/-- The whole result. -/
def outArr (agg x0 : Arr 10000 128) (x10 : Arr 256 128) (x11 : Arr1 128) (x12 : Arr 128 128) (x13 : Arr1 128)
    (x14 : Arr 128 128) (x15 : Arr1 128) (x16 : Arr 128 128) (x17 x18 : Arr1 128) : Arr 10000 128 :=
  arr2 (outAt agg x0 x10 x11 x12 x13 x14 x15 x16 x17 x18)

/-- The concatenated first layer of the message perceptron, band by band. -/
theorem lin_cat3_bands (s r e : Row) (W : Mat 384) (j : Fin 128) :
    lin (cat3 s r e) W j = lin3 s r e (band0 (by omega) W) (band1 (by omega) W) (band2 (by omega) W) j := lin_cat3 s r e W j

/-- The concatenated first layer of the node perceptron, band by band. -/
theorem lin_cat2_bands (n a : Row) (W : Mat 256) (j : Fin 128) :
    lin (cat2 n a) W j = lin2 n a (band0 (by omega) W) (band1 (by omega) W) j := lin_cat2 n a W j

end Cert.MsgPass

end
-- ==== Proof.KArgs.lean ====
/-
  The idealized kernel program's nineteen argument arrays as launched on a core, typed as plain arrays, and the
  message-passing step's arrays made from them.
-/
import proofs.«405827_j62749472195028_1_alg».proof.Proof.Gen.KernelIdeal.Frame
import proofs.«405827_j62749472195028_1_alg».proof.Proof.Arrays

noncomputable section

namespace Cert.KernelIdeal.Args

open Cert.KernelIdeal Cert.MsgPass
open Idealize.ShloMosaic Idealize.ShloMosaic.TcCoe Idealize.ShloMosaic.ValueIdx Idealize.SL.Sem

variable (m : (ℓ : Loc nD τ sig) → Buf (Elt Ideal) ℓ) (c : Dev nD)

/-- The node table. -/
abbrev a0 : Arr 10000 128 := m ((c : Thread nD τ).loc main_arg0)
/-- The edge features. -/
abbrev a1 : Arr 640000 128 := m ((c : Thread nD τ).loc main_arg1)
/-- The sender words. -/
abbrev w2 : Words 640000 := m ((c : Thread nD τ).loc main_arg2)
/-- The receiver words. -/
abbrev w3 : Words 640000 := m ((c : Thread nD τ).loc main_arg3)
abbrev a4 : Arr 384 128 := m ((c : Thread nD τ).loc main_arg4)
abbrev a5 : Arr1 128 := m ((c : Thread nD τ).loc main_arg5)
abbrev a6 : Arr 128 128 := m ((c : Thread nD τ).loc main_arg6)
abbrev a7 : Arr1 128 := m ((c : Thread nD τ).loc main_arg7)
abbrev a8 : Arr 128 128 := m ((c : Thread nD τ).loc main_arg8)
abbrev a9 : Arr1 128 := m ((c : Thread nD τ).loc main_arg9)
abbrev a10 : Arr 256 128 := m ((c : Thread nD τ).loc main_arg10)
abbrev a11 : Arr1 128 := m ((c : Thread nD τ).loc main_arg11)
abbrev a12 : Arr 128 128 := m ((c : Thread nD τ).loc main_arg12)
abbrev a13 : Arr1 128 := m ((c : Thread nD τ).loc main_arg13)
abbrev a14 : Arr 128 128 := m ((c : Thread nD τ).loc main_arg14)
abbrev a15 : Arr1 128 := m ((c : Thread nD τ).loc main_arg15)
abbrev a16 : Arr 128 128 := m ((c : Thread nD τ).loc main_arg16)
abbrev a17 : Arr1 128 := m ((c : Thread nD τ).loc main_arg17)
abbrev a18 : Arr1 128 := m ((c : Thread nD τ).loc main_arg18)

/-- Every edge's message, from the launch contents. -/
def msgK : Arr 640000 128 :=
  msgArr (a0 m c) (a1 m c) (w2 m c) (w3 m c) (a4 m c) (a5 m c) (a6 m c) (a7 m c) (a8 m c) (a9 m c)

/-- The messages summed into their receivers' rows: the program's own accumulating scatter into a zero table. -/
def aggK : Arr 10000 128 :=
  Host.scatterAdd (F := Ideal) scatter_S10000x128_S640000x1_S640000x128_1_0_0_1
    (broadcastInDim S10000x128 ![] Facts₀.bcast_S_S10000x128 (constant (F := Ideal) S_ .f32 0x00000000#32))
    (broadcastInDim S640000x1 ![0] Facts₀.bcast_S640000_S640000x1_0 (w3 m c)) (msgK m c)

/-- The result array, from the launch contents. -/
def outK : Arr 10000 128 :=
  outArr (aggK m c) (a0 m c) (a10 m c) (a11 m c) (a12 m c) (a13 m c) (a14 m c) (a15 m c) (a16 m c) (a17 m c) (a18 m c)

end Cert.KernelIdeal.Args

end
-- ==== Proof.Body.lean ====
/-
  The two kernel bodies read at one entry: what each leaves in its output block, as the row-level perceptrons of Spec.
-/
import proofs.«405827_j62749472195028_1_alg».proof.Proof.Gen.KernelIdeal.Frame
import proofs.«405827_j62749472195028_1_alg».proof.Proof.Arrays
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Cert.MsgPass
open Idealize.ShloMosaic Idealize.ShloMosaic.ValueIdx
open scoped BigOperators

/-! ## A product of a 2560-row block with a 128 × 128 block, entry by entry -/

private theorem lhsA_0 (i : S2560x128.Idx) (q : dot_S2560x128_S128x128_S2560x128_1_0_0_1_n_n.contr.Idx) :
    (dot_S2560x128_S128x128_S2560x128_1_0_0_1_n_n.lhsIdx i q 0).val = (i 0).val := by
  unfold DotDims.lhsIdx
  rw [dif_neg (show ¬(0 : Fin S2560x128.rank) ∈ dot_S2560x128_S128x128_S2560x128_1_0_0_1_n_n.lhsBatch by decide), dif_pos (show (0 : Fin S2560x128.rank) ∈ dot_S2560x128_S128x128_S2560x128_1_0_0_1_n_n.lhsNonContracting by decide)]
  rfl
private theorem lhsA_1 (i : S2560x128.Idx) (q : dot_S2560x128_S128x128_S2560x128_1_0_0_1_n_n.contr.Idx) :
    (dot_S2560x128_S128x128_S2560x128_1_0_0_1_n_n.lhsIdx i q 1).val = (q ⟨0, by decide⟩).val :=
  dot_S2560x128_S128x128_S2560x128_1_0_0_1_n_n.lhsIdx_val_of_single rfl i q
private theorem rhsA_0 (i : S2560x128.Idx) (q : dot_S2560x128_S128x128_S2560x128_1_0_0_1_n_n.contr.Idx) :
    (dot_S2560x128_S128x128_S2560x128_1_0_0_1_n_n.rhsIdx i q 0).val = (q ⟨0, by decide⟩).val :=
  dot_S2560x128_S128x128_S2560x128_1_0_0_1_n_n.rhsIdx_val_of_single rfl i q
private theorem rhsA_1 (i : S2560x128.Idx) (q : dot_S2560x128_S128x128_S2560x128_1_0_0_1_n_n.contr.Idx) :
    (dot_S2560x128_S128x128_S2560x128_1_0_0_1_n_n.rhsIdx i q 1).val = (i 1).val := by
  unfold DotDims.rhsIdx
  rw [dif_neg (show ¬(1 : Fin S128x128.rank) ∈ dot_S2560x128_S128x128_S2560x128_1_0_0_1_n_n.rhsBatch by decide), dif_pos (show (1 : Fin S128x128.rank) ∈ dot_S2560x128_S128x128_S2560x128_1_0_0_1_n_n.rhsNonContracting by decide)]
  rfl

/-- Entry (p, j) of the product from a zero accumulator is the sum over k of the left block's (p, k) times the right block's (k, j). -/
private theorem matmulA_apply {φ₁ φ₂ : FTy} (x : FVec Ideal S2560x128 φ₁) (W : FVec Ideal S128x128 φ₂) (p : Fin 2560) (j : Fin 128) :
    matmul dot_S2560x128_S128x128_S2560x128_1_0_0_1_n_n none x W (constant (F := Ideal) S2560x128 .f32 0x00000000#32) (ix2 p j)
      = ∑ k : Fin 128, x (ix2 p k) * W (ix2 k j) := by
  simp only [matmul]
  rw [Ideal.matmul_constant_zero_apply, ← Equiv.sum_comp (ValueIdx.contrEquiv1 dot_S2560x128_S128x128_S2560x128_1_0_0_1_n_n 128 rfl rfl).symm]
  refine Finset.sum_congr rfl fun k _ => ?_
  have hk := ValueIdx.contrEquiv1_symm_val dot_S2560x128_S128x128_S2560x128_1_0_0_1_n_n 128 rfl rfl k
  have el : dot_S2560x128_S128x128_S2560x128_1_0_0_1_n_n.lhsIdx (ix2 p j) ((ValueIdx.contrEquiv1 dot_S2560x128_S128x128_S2560x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S2560x128_S128x128_S2560x128_1_0_0_1_n_n.rhsIdx (ix2 p j) ((ValueIdx.contrEquiv1 dot_S2560x128_S128x128_S2560x128_1_0_0_1_n_n 128 rfl rfl).symm k) = ix2 k j := funext fun a => Fin.ext (by
    match a with
    | ⟨0, _⟩ => exact (rhsA_0 _ _).trans hk
    | ⟨1, _⟩ => exact rhsA_1 _ _)
  rw [el, er]

/-! ## A product of a 1000-row block with a 128 × 128 block, entry by entry -/

private theorem lhsB_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
private theorem lhsB_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
private theorem rhsB_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
private theorem rhsB_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- Entry (p, j) of the product from a zero accumulator is the sum over k of the left block's (p, k) times the right block's (k, j). -/
private theorem matmulB_apply {φ₁ φ₂ : FTy} (x : FVec Ideal S1000x128 φ₁) (W : FVec Ideal S128x128 φ₂) (p : Fin 1000) (j : Fin 128) :
    matmul dot_S1000x128_S128x128_S1000x128_1_0_0_1_n_n none x W (constant (F := Ideal) S1000x128 .f32 0x00000000#32) (ix2 p j)
      = ∑ k : Fin 128, x (ix2 p k) * W (ix2 k j) := by
  simp only [matmul]
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p j) ((ValueIdx.contrEquiv1 dot_S1000x128_S128x128_S1000x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S1000x128_S128x128_S1000x128_1_0_0_1_n_n.rhsIdx (ix2 p j) ((ValueIdx.contrEquiv1 dot_S1000x128_S128x128_S1000x128_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-! ## A bias row over every row, and the positive part -/

/-- A length-128 row viewed 1 × 128 and repeated over a rows reads, at (p, q), the row at q. -/
private theorem bias_apply {α : Type} {a : ℕ} (b : (⟨1, ![128]⟩ : Shape).Idx → α) (h1 : (⟨1, ![128]⟩ : Shape).ShapeCasts ⟨2, ![1, 128]⟩)
    (h2 : (⟨2, ![1, 128]⟩ : Shape).Broadcasts ⟨2, ![a, 128]⟩) (p : Fin a) (q : Fin 128) :
    broadcastTo ⟨2, ![a, 128]⟩ (shapeCast ⟨2, ![1, 128]⟩ b h1) h2 (ix2 p q) = b (ix1 q) :=
  (broadcastTo_1b_ab_apply _ h2 p q).trans (shapeCast_a_1a_apply b h1 0 q)

/-- The maximum with the zero block, then narrowed: entry by entry the positive part. -/
private theorem relu_apply {s : Shape} (y : FVec Ideal s .f32) (i : s.Idx) :
    (truncf .bf16 (maximumf y (broadcast s (Scalar.ofBits (F := Ideal) .f32 0x00000000#32))) bitsLt_bf16_f32 : FVec Ideal s .bf16) i
      = max (y i) 0 := by
  show max (y i) (Ideal.ofBits .f32 0x00000000#32) = _
  rw [Ideal.ofBits_zero_f32]

/-! ## A column kept beside its rows, and the sum over a row's lanes -/

/-- A length-a column viewed a × 1 reads, at (p, 0), the column at p. -/
private theorem col_cast_apply {α : Type} {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An a × 1 column repeated over b lanes reads, at (p, q), the column at p. -/
private theorem col_bcast_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The sum over the 128 lanes of a 1000 × 128 block, at row p. -/
private theorem lane_sum_apply (src : FVec Ideal S1000x128 .f32) (hφ : FTy.f32 = FTy.f32 ∨ FTy.f32 = FTy.bf16)
    (hacc : (0x00000000#32 : BitVec 32) = 0x00000000#32) (p : Fin 1000) :
    multiReduction (F := Ideal) .add [1] S1000 src 0x00000000#32 reduces_S1000x128_S1000 hφ hacc (ix1 p)
      = ∑ k : Fin 128, src (ix2 p k) := by
  refine (Ideal.multiReduction_add_single src 0x00000000#32 reduces_S1000x128_S1000 hφ hacc (ix1 p)).trans ?_
  refine Finset.sum_congr rfl fun k _ => congrArg src (funext fun a => Fin.ext ?_)
  match a with
  | ⟨0, _⟩ => rfl
  | ⟨1, _⟩ => rfl

/-- The reciprocal root, entry by entry. -/
private theorem rsqrt_apply {s : Shape} {φ : FTy} (a : FVec Ideal s φ) (i : s.Idx) : rsqrt a i = Ideal.rsqrt (a i) := rfl

/-- A dense layer of the 2560-row block: entry (p, q) of the product with the weight block plus the bias row. -/
private theorem denseA_apply {φ : FTy} (h : FVec Ideal S2560x128 φ) (W : FVec Ideal S128x128 .bf16) (b : FVec Ideal S128 .f32)
    (p : Fin 2560) (q : Fin 128) :
    addf (matmul dot_S2560x128_S128x128_S2560x128_1_0_0_1_n_n none h W (constant (F := Ideal) S2560x128 .f32 0x00000000#32))
        (broadcastTo S2560x128 (shapeCast S1x128 b shapeCasts_S128_S1x128) broadcasts_S1x128_S2560x128) (ix2 p q)
      = lin (fun k => h (ix2 p k)) (mat W) q + vec b q := by
  rw [addf_apply, matmulA_apply, bias_apply]
  rfl

/-- A product of a narrowed 2560-row block with a weight block: row p of the block against the weight. -/
private theorem prodA_apply (x : FVec Ideal S2560x128 .f32) (W : FVec Ideal S128x128 .bf16) (p : Fin 2560) (q : Fin 128) :
    matmul dot_S2560x128_S128x128_S2560x128_1_0_0_1_n_n none (truncf .bf16 x bitsLt_bf16_f32) W (constant (F := Ideal) S2560x128 .f32 0x00000000#32) (ix2 p q)
      = lin (rowAt x p) (mat W) q := by
  rw [matmulA_apply]
  rfl

/-- A dense layer of the 1000-row block: entry (p, q) of the product with the weight block plus the bias row. -/
private theorem denseB_apply {φ : FTy} (h : FVec Ideal S1000x128 φ) (W : FVec Ideal S128x128 .bf16) (b : FVec Ideal S128 .f32)
    (p : Fin 1000) (q : Fin 128) :
    addf (matmul dot_S1000x128_S128x128_S1000x128_1_0_0_1_n_n none h W (constant (F := Ideal) S1000x128 .f32 0x00000000#32))
        (broadcastTo S1000x128 (shapeCast S1x128 b shapeCasts_S128_S1x128) broadcasts_S1x128_S1000x128) (ix2 p q)
      = lin (fun k => h (ix2 p k)) (mat W) q + vec b q := by
  rw [addf_apply, matmulB_apply, bias_apply]
  rfl

/-- A product of a narrowed 1000-row block with a weight block: row p of the block against the weight. -/
private theorem prodB_apply (x : FVec Ideal S1000x128 .f32) (W : FVec Ideal S128x128 .bf16) (p : Fin 1000) (q : Fin 128) :
    matmul dot_S1000x128_S128x128_S1000x128_1_0_0_1_n_n none (truncf .bf16 x bitsLt_bf16_f32) W (constant (F := Ideal) S1000x128 .f32 0x00000000#32) (ix2 p q)
      = lin (rowAt x p) (mat W) q := by
  rw [matmulB_apply]
  rfl

/-- The zero offsets of a whole block, rank 2 and rank 1. -/
private theorem hz2 : (![0, 0] : Fin 2 → Nat) = fun _ => 0 := by funext a; match a with | ⟨0, _⟩ => rfl | ⟨1, _⟩ => rfl
private theorem hz1 : (![0] : Fin 1 → Nat) = fun _ => 0 := by funext a; match a with | ⟨0, _⟩ => rfl

/-! ## The message kernel -/

/-- The second hidden layer of the message perceptron at (p, q). -/
private theorem k0_pay2_apply (v0 v3 v6 : Vec Ideal S2560x128 .f32) (v8 v11 v15 : Vec Ideal S128x128 .bf16) (v19 : Vec Ideal S128 .f32)
    (v26 : Vec Ideal S128x128 .bf16) (v29 : Vec Ideal S128 .f32) (p : Fin 2560) (q : Fin 128) :
    k0_pay2 (F := Ideal) v0 v3 v6 v8 v11 v15 v19 v26 v29 (ix2 p q)
      = relu (fun j => lin (relu fun j => lin3 (rowAt v0 p) (rowAt v3 p) (rowAt v6 p) (mat v8) (mat v11) (mat v15) j + vec v19 j)
          (mat v26) j + vec v29 j) q := by
  unfold k0_pay2
  simp only [shapeCast_self]
  refine (relu_apply _ _).trans (congrArg (max · 0) ?_)
  refine (denseA_apply _ v26 v29 p q).trans ?_
  refine congrArg (fun r : Row => lin r (mat v26) q + vec v29 q) (funext fun k => ?_)
  refine (relu_apply _ _).trans (congrArg (max · 0) ?_)
  rw [addf_apply, addf_apply, addf_apply, bias_apply, prodA_apply, prodA_apply, prodA_apply]
  rfl

/-- The last layer of the message perceptron at (p, q), over whatever the hidden block is. -/
private theorem k0_pay1_apply (v35 : FVec Ideal S2560x128 .bf16) (v36 : Vec Ideal S128x128 .bf16) (v39 : Vec Ideal S128 .f32)
    (p : Fin 2560) (q : Fin 128) :
    k0_pay1 (F := Ideal) v35 v36 v39 (ix2 p q) = lin (fun k => v35 (ix2 p k)) (mat v36) q + vec v39 q := by
  unfold k0_pay1
  simp only [shapeCast_self]
  exact denseA_apply v35 v36 v39 p q

/-! ## The node kernel -/

/-- The node perceptron at (p, q): its two-piece first layer, two positive parts and two dense layers. -/
private theorem k1_pay3_apply (v0 v1 : Vec Ideal S1000x128 .f32) (v5 v8 : Vec Ideal S128x128 .bf16) (v12 : Vec Ideal S128 .f32)
    (v19 : Vec Ideal S128x128 .bf16) (v22 : Vec Ideal S128 .f32) (v29 : Vec Ideal S128x128 .bf16) (v32 : Vec Ideal S128 .f32)
    (p : Fin 1000) (q : Fin 128) :
    k1_pay3 (F := Ideal) v0 v1 v5 v8 v12 v19 v22 v29 v32 (ix2 p q)
      = mlpTail (lin2 (rowAt v0 p) (rowAt v1 p) (mat v5) (mat v8)) (vec v12) (mat v19) (vec v22) (mat v29) (vec v32) q := by
  unfold k1_pay3 k1_pay2
  simp only [shapeCast_self]
  refine (denseB_apply _ v29 v32 p q).trans ?_
  refine congrArg (fun r : Row => lin r (mat v29) q + vec v32 q) (funext fun k => ?_)
  refine (relu_apply _ _).trans (congrArg (max · 0) ?_)
  refine (denseB_apply _ v19 v22 p k).trans ?_
  refine congrArg (fun r : Row => lin r (mat v19) k + vec v22 k) (funext fun k' => ?_)
  refine (relu_apply _ _).trans (congrArg (max · 0) ?_)
  rw [addf_apply, addf_apply, bias_apply, prodB_apply, prodB_apply]
  rfl

/-- The residual product added to the perceptron's block, then normalised along each row, at (p, q). -/
private theorem k1_pay1_apply (v3 : FVec Ideal S1000x128 .bf16) (v35 : FVec Ideal S1000x128 .f32) (v36 : Vec Ideal S128x128 .bf16)
    (v58 v62 : Vec Ideal S128 .f32) (p : Fin 1000) (q : Fin 128) :
    k1_pay1 (F := Ideal) v3 v35 v36 v58 v62 (ix2 p q)
      = layerNorm c128 eps (fun j => lin (fun k => v3 (ix2 p k)) (mat v36) j + v35 (ix2 p j)) (vec v58) (vec v62) q := by
  unfold k1_pay1
  simp only [shapeCast_self]
  simp only [addf_apply, mulf_apply, subf_apply, divf_apply, rsqrt_apply, broadcast_apply, bias_apply, col_bcast_apply,
    col_cast_apply]
  repeat rw [lane_sum_apply]
  simp only [addf_apply, mulf_apply, subf_apply, divf_apply, broadcast_apply, col_bcast_apply, col_cast_apply]
  repeat rw [lane_sum_apply]
  simp only [addf_apply, matmulB_apply]
  rfl

/-- Entry (p, q) of the message kernel's output block: the message of the block's p-th edge, made from row p of the
    sender, receiver and edge blocks and the whole weight and bias blocks. -/
theorem out0_apply (x0 x1 x2 : Vec Ideal S2560x128 .f32) (x3 x4 x5 : Vec Ideal S128x128 .bf16) (x6 : Vec Ideal S128 .f32)
    (x7 : Vec Ideal S128x128 .bf16) (x8 : Vec Ideal S128 .f32) (x9 : Vec Ideal S128x128 .bf16) (x10 : Vec Ideal S128 .f32)
    (p : Fin 2560) (q : Fin 128) :
    out0_11 (F := Ideal) x0 x1 x2 x3 x4 x5 x6 x7 x8 x9 x10 (ix2 p q)
      = msgRow (rowAt x0 p) (rowAt x1 p) (rowAt x2 p) (mat x3) (mat x4) (mat x5) (vec x6) (mat x7) (vec x8) (mat x9) (vec x10) q := by
  unfold out0_11
  rw [View.canon_unit_zero hz2]
  simp only [View.ld_unit_zero (S := S2560x128) hz2, View.ld_unit_zero (S := S128x128) hz2, View.ld_unit_zero (S := S128) hz1]
  refine (k0_pay1_apply _ x9 x10 p q).trans ?_
  refine congrArg (fun r : Row => lin r (mat x9) q + vec x10 q) (funext fun k => ?_)
  exact k0_pay2_apply x0 x1 x2 x3 x4 x5 x6 x7 x8 p k

/-- Entry (p, q) of the node kernel's output block: the new features of the block's p-th node, made from row p of the
    node and aggregate blocks and the whole weight, bias, scale and shift blocks. -/
theorem out1_apply (x0 x1 : Vec Ideal S1000x128 .f32) (x2 x3 : Vec Ideal S128x128 .bf16) (x4 : Vec Ideal S128 .f32)
    (x5 : Vec Ideal S128x128 .bf16) (x6 : Vec Ideal S128 .f32) (x7 : Vec Ideal S128x128 .bf16) (x8 : Vec Ideal S128 .f32)
    (x9 : Vec Ideal S128x128 .bf16) (x10 x11 : Vec Ideal S128 .f32) (p : Fin 1000) (q : Fin 128) :
    out1_12 (F := Ideal) x0 x1 x2 x3 x4 x5 x6 x7 x8 x9 x10 x11 (ix2 p q)
      = nodeRow c128 eps (rowAt x0 p) (rowAt x1 p) (mat x2) (mat x3) (vec x4) (mat x5) (vec x6) (mat x7) (vec x8) (mat x9) (vec x10) (vec x11) q := by
  unfold out1_12
  rw [View.canon_unit_zero hz2]
  simp only [View.ld_unit_zero (S := S1000x128) hz2, View.ld_unit_zero (S := S128x128) hz2, View.ld_unit_zero (S := S128) hz1]
  refine (k1_pay1_apply _ _ x9 x10 x11 p q).trans ?_
  refine congrArg (fun r : Row => layerNorm c128 eps r (vec x10) (vec x11) q) (funext fun j => ?_)
  exact congrArg (fun t : EReal => lin (rowAt x0 p) (mat x9) j + t) (k1_pay3_apply x0 x1 x2 x3 x4 x5 x6 x7 x8 p j)

end Cert.KernelIdeal.Body

end
-- ==== Proof.LibGatherRows.lean ====
/-
  A gather of rows from a table, read at one index, at any instance.

  A gather that reads M rows of a table, each named by one index word: position e reads the row whose number is the
  word read signed and clamped into the table.
-/
import Idealize.ShloMosaic.Lib.StableHlo.Predicate
import Idealize.ShloMosaic.Lib.ValueIdx
import Idealize.ShloMosaic.Lib.Pipeline.Value

noncomputable section

namespace GraphOps

open Idealize.ShloMosaic Idealize.ShloMosaic.ValueIdx
open scoped BigOperators

/-- The rank-1 index at coordinate k, in its two spellings. -/
theorem ofFin_eq_ix1 {n : ℕ} (k : Fin n) : Shape.Idx.ofFin k = ix1 k := by
  funext a
  match a with
  | ⟨0, _⟩ => rfl

/-- Row p of an index column, in its two spellings. -/
theorem ixP_eq_ix2 {n : ℕ} (p : Fin n) : StableHlo.Predicate.ixP p = ix2 p 0 := by
  funext b
  match b with
  | ⟨0, _⟩ => rfl
  | ⟨1, _⟩ => rfl

/-- A take from a rank-1 table. With the table's one axis collapsed and start-indexed by the one-word index vector,
    position e of the result is the table's entry at e's index word read signed and clamped into [0, N - 1]. -/
theorem gather_rows1 {α : Type} {N M w : ℕ} (d : GatherDims ⟨1, ![N]⟩ ⟨2, ![M, 1]⟩ ⟨1, ![M]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq_ix1, ofFin_eq_ix1] at h
  simp only [ixP_eq_ix2] at h
  exact h

/-- A take of whole rows from a rank-2 table. With the result's second axis the offset axis, the table's first axis
    collapsed and start-indexed by the one-word index vector, entry (e, k) of the result is entry k of the table's row
    at e's index word read signed and clamped into [0, N - 1]. -/
theorem gather_rows2 {α : Type} {N D M w : ℕ} (d : GatherDims ⟨2, ![N, D]⟩ ⟨2, ![M, 1]⟩ ⟨2, ![M, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![M, 1]⟩ w) (e : Fin M) (k : Fin D) (hN : 0 < N) :
    Host.gather d x idx (ix2 e k) = x (ix2 ⟨min (idx (ix2 e 0)).toInt.toNat (N - 1), by omega⟩ k) := by
  obtain ⟨od, cd, ob, sb, sm, iv, ss, wf⟩ := d
  dsimp only at hoff hcoll hob hsim hivd
  subst hoff hcoll hob hsim hivd
  unfold Host.gather
  congr 1
  funext a
  apply Fin.ext
  match a with
  | ⟨0, _⟩ =>
    -- the row axis: collapsed and start-indexed, so the clamped start alone
    show GatherDims.start _ (ix2 e k) idx 0 + GatherDims.batchCoord _ (ix2 e k) 0 + GatherDims.offCoord _ (ix2 e k) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsl : ss 0 = 1 := wf.2.2.2.2.2.2.2.2.2.2.2.1 0 (List.mem_singleton.mpr rfl)
    show min (idx _).toInt.toNat (N - ss 0) = min (idx (ix2 e 0)).toInt.toNat (N - 1)
    rw [hsl]
    -- the start index is read at row e of the index column
    refine congrArg (fun z => min (idx z).toInt.toNat (N - 1)) ?_
    funext b
    apply Fin.ext
    match b with
    | ⟨0, _⟩ => rfl
    | ⟨1, _⟩ => rfl
  | ⟨1, _⟩ =>
    -- the feature axis: the offset axis, not start-indexed, so the result's own second coordinate
    show GatherDims.start _ (ix2 e k) idx 1 + GatherDims.batchCoord _ (ix2 e k) 1 + GatherDims.offCoord _ (ix2 e k) 1
      = k.val
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨show ¬ (1 : Fin 2) ∈ ([0] : List (Fin 2)) by decide, List.not_mem_nil⟩)]
    show 0 + 0 + k.val = k.val
    omega

end GraphOps

end
-- ==== Proof.Entry0.lean ====
/-
  What the message kernel finds in its eleven input arrays when its region is entered, from the launch contents: the two
  takes of node rows (in range, the bounds mask is all true and the fill value is never chosen), the edge features and
  biases as launched, and the weights as launched, the first one band by band.
-/
import proofs.«405827_j62749472195028_1_alg».proof.Proof.Gen.KernelIdeal.Frame
import proofs.«405827_j62749472195028_1_alg».proof.Proof.KArgs
import proofs.«405827_j62749472195028_1_alg».proof.Proof.LibGatherRows
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.Affine
import Idealize.ShloMosaic.PureOps.Reduce

noncomputable section

namespace Cert.KernelIdeal.Entry0

open Cert.KernelIdeal Cert.KernelIdeal.Gen Cert.KernelIdeal.Args Cert.MsgPass
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## A buffer a stretch of host operations does not write -/

/-- No operation of the named stretch writes the buffer. -/
local macro "keeps " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem W3_keeps (b : Ref sig .tc)
    (h : ∀ op ∈ (hostOps0_2 : List (HloOp τ sig (Elt Ideal))), Proc.devRef .tc b ∉ op.writes) :
    W3 m ρ c (Proc.devRef .tc b) = W2 m ρ c (Proc.devRef .tc b) := StableHlo.after_of_forall_not_mem _ _ h
theorem W2_keeps (b : Ref sig .tc)
    (h : ∀ op ∈ (hostOps0_1 : List (HloOp τ sig (Elt Ideal))), Proc.devRef .tc b ∉ op.writes) :
    W2 m ρ c (Proc.devRef .tc b) = W1 m ρ c (Proc.devRef .tc b) := StableHlo.after_of_forall_not_mem _ _ h
theorem W1_keeps (b : Ref sig .tc)
    (h : ∀ op ∈ (hostOps0 : List (HloOp τ sig (Elt Ideal))), Proc.devRef .tc b ∉ op.writes) :
    W1 m ρ c (Proc.devRef .tc b) = W0 m ρ c (Proc.devRef .tc b) := StableHlo.after_of_forall_not_mem _ _ h

/-! ## The take of rows in fill mode -/

/-- An index word that names a row as it stands is not counted from the end. -/
theorem norm_of_inRange {v : BitVec 32} (h : InRange v) : norm v = v := by
  have h0 : IntOp.cmpi .slt v 0#32 = 0#1 := eq_zero_of_ne_one (fun h1 => by
    have a := IntOp.cmpi_sge.mp h.1
    have b := IntOp.cmpi_slt.mp h1
    omega)
  unfold Cert.MsgPass.norm
  rw [h0, select_zero]

/-- An index word that names a row as it stands is at most the last row's number. -/
theorem sle_of_inRange {v : BitVec 32} (h : InRange v) : IntOp.cmpi .sle v 9999#32 = 1#1 := by
  refine IntOp.cmpi_sle.mpr ?_
  have b := IntOp.cmpi_slt.mp h.2
  have e1 : (10000#32 : BitVec 32).toInt = 10000 := by decide
  have e2 : (9999#32 : BitVec 32).toInt = 9999 := by decide
  omega

/-- A fold by and from 1 over bits that are all 1 is 1. -/
theorem fold_andi_one {ι : Type} (s : Finset ι) (g : ι → BitVec 1) (h : ∀ i ∈ s, g i = 1#1) :
    s.fold IntOp.andi 1#1 g = 1#1 := by
  classical
  revert h
  refine Finset.induction_on s (fun _ => Finset.fold_empty) (fun a s ha ih h => ?_)
  rw [Finset.fold_insert ha, h a (Finset.mem_insert_self a s), ih fun i hi => h i (Finset.mem_insert_of_mem hi)]
  rfl

/-- The index column of a take: each word counted from the table's end when negative, as a one-column array. -/
def takeIdx (w : Words 640000) : IVec S640000x1 32 :=
  broadcastInDim S640000x1 ![0] Facts₀.bcast_S640000_S640000x1_0
    (select (cmpi .slt w (broadcastInDim S640000 ![] Facts₀.bcast_S_S640000 (constantI S_ 32 0#32)))
      (addi w (broadcastInDim S640000 ![] Facts₀.bcast_S_S640000 (constantI S_ 32 10000#32))) w)

/-- The bounds mask of a take: row e's bit says its index is between 0 and 9999. -/
def takeMask (w : Words 640000) : IVec S640000 1 :=
  Host.reduce IntOp.andi
    (andi (cmpi .sge (takeIdx w) (broadcastInDim S640000x1 ![] Facts₀.bcast_S_S640000x1 (constantI S_ 32 0#32)))
      (cmpi .sle (takeIdx w) (broadcastInDim S640000x1 ![0, 1] Facts₀.bcast_S1x1_S640000x1_0_1
        (broadcastInDim S1x1 ![1] Facts₀.bcast_S1_S1x1_1 (constantI S1 32 9999#32)))))
    (constantI S_ 1 1#1) Facts₀.reducesTo_S640000x1_S640000_d1 Facts₀.h_S_

/-- The take: the gathered rows where the mask holds, the fill value elsewhere. -/
def take (x : Arr 10000 128) (w : Words 640000) : Arr 640000 128 :=
  select (broadcastInDim S640000x128 ![0] Facts₀.bcast_S640000_S640000x128_0 (takeMask w))
    (Host.gather gather_S10000x128_S640000x1_S640000x128_1_0_n_n_0_1_1128 x (takeIdx w))
    (broadcastInDim S640000x128 ![] Facts₀.bcast_S_S640000x128 (constant (F := Ideal) S_ .f32 0x7FC00000#32))

/-- Row e of the index column is e's word, counted from the end when negative. -/
theorem takeIdx_apply (w : Words 640000) (e : Fin 640000) : takeIdx w (ix2 e 0) = norm (w (ix1 e)) := by
  unfold takeIdx
  refine (broadcastInDim_apply _ Facts₀.bcast_S640000_S640000x1_0 _ (ix2 e 0) (ix1 e) (fun a => ?_)).trans ?_
  · match a with
    | ⟨0, _⟩ => show e.val = if (640000 : Nat) = 1 then 0 else e.val; rw [if_neg (by decide)]
  · rfl

/-- In range, the mask bit is set. -/
theorem takeMask_apply (w : Words 640000) (e : Fin 640000) (hw : InRange (w (ix1 e))) : takeMask w (ix1 e) = 1#1 := by
  have hR : S640000x1.Reduces [1] S640000 := by decide
  unfold takeMask
  refine (Host.reduce_eq_fold_single IntOp.andi _ _ Facts₀.reducesTo_S640000x1_S640000_d1 hR Facts₀.h_S_ (ix1 e)).trans ?_
  refine fold_andi_one _ _ (fun q _ => ?_)
  have hq : hR.lift (ix1 e) q = ix2 e 0 := by
    funext a
    apply Fin.ext
    match a with
    | ⟨0, _⟩ => rfl
    | ⟨1, _⟩ =>
      have hlt : q.val < 1 := q.isLt
      show q.val = 0
      omega
  rw [Function.comp_apply, hq]
  show IntOp.andi (IntOp.cmpi .sge (takeIdx w (ix2 e 0)) 0#32) (IntOp.cmpi .sle (takeIdx w (ix2 e 0)) 9999#32) = 1#1
  rw [takeIdx_apply, norm_of_inRange hw, hw.1, sle_of_inRange hw]
  rfl

/-- In range, entry (e, k) of the take is entry k of the table's row that e's word names. -/
theorem take_apply (x : Arr 10000 128) (w : Words 640000) (e : Fin 640000) (k : Fin 128) (hw : InRange (w (ix1 e))) :
    take x w (ix2 e k) = x (ix2 (rowOf (norm (w (ix1 e)))) k) := by
  have hmask : broadcastInDim S640000x128 ![0] Facts₀.bcast_S640000_S640000x128_0 (takeMask w) (ix2 e k) = 1#1 := by
    refine (broadcastInDim_apply _ Facts₀.bcast_S640000_S640000x128_0 (takeMask w) (ix2 e k) (ix1 e) (fun a => ?_)).trans
      (takeMask_apply w e hw)
    match a with
    | ⟨0, _⟩ => show e.val = if (640000 : Nat) = 1 then 0 else e.val; rw [if_neg (by decide)]
  unfold take
  rw [select_apply, hmask, select_one,
    GraphOps.gather_rows2 _ rfl rfl rfl rfl rfl x (takeIdx w) e k (by decide)]
  refine congrArg (fun r => x (ix2 r k)) (Fin.ext ?_)
  show min (takeIdx w (ix2 e 0)).toInt.toNat (10000 - 1) = min (Cert.MsgPass.norm (w (ix1 e))).toInt.toNat 9999
  rw [takeIdx_apply]

/-- The sender features as the host operations' term. -/
theorem V3_v0_term : (V3 m ρ c main_v0 : Arr 640000 128) = take (a0 m c) (w2 m c) := by
  refine (W3_keeps m ρ c main_v0 (by keeps hostOps0_2)).trans ?_
  refine (W2_keeps m ρ c main_v0 (by keeps hostOps0_1)).trans ?_
  show StableHlo.after hostOps0 (W0 m ρ c) (Proc.devRef .tc main_v0)
    = take (W0 m ρ c (Proc.devRef .tc main_arg0)) (W0 m ρ c (Proc.devRef .tc main_arg2))
  generalize W0 m ρ c = V0
  after_results_simp
  simp only [cast_cast, cast_eq]
  rfl

/-- The receiver features as the host operations' term. -/
theorem V3_v1_term : (V3 m ρ c main_v1 : Arr 640000 128) = take (a0 m c) (w3 m c) := by
  refine (W3_keeps m ρ c main_v1 (by keeps hostOps0_2)).trans ?_
  have e0 : (W1 m ρ c (Proc.devRef .tc main_arg0) : Arr 10000 128) = a0 m c :=
    (W1_keeps m ρ c main_arg0 (by keeps hostOps0)).trans rfl
  have e3 : (W1 m ρ c (Proc.devRef .tc main_arg3) : Words 640000) = w3 m c :=
    (W1_keeps m ρ c main_arg3 (by keeps hostOps0)).trans rfl
  refine Eq.trans ?_ (congrArg₂ take e0 e3)
  show StableHlo.after hostOps0_1 (W1 m ρ c) (Proc.devRef .tc main_v1)
    = take (W1 m ρ c (Proc.devRef .tc main_arg0)) (W1 m ρ c (Proc.devRef .tc main_arg3))
  generalize W1 m ρ c = V1
  after_results_simp
  simp only [cast_cast, cast_eq]
  rfl

/-- The sender features: row e is the node table's row named by edge e's sender word. -/
theorem V3_v0 (hs : ∀ e : Fin 640000, InRange (w2 m c (ix1 e))) (e : Fin 640000) (k : Fin 128) :
    (V3 m ρ c main_v0 : Arr 640000 128) (ix2 e k) = a0 m c (ix2 (rowOf (norm (w2 m c (ix1 e)))) k) :=
  (congrFun (V3_v0_term m ρ c) (ix2 e k)).trans (take_apply (a0 m c) (w2 m c) e k (hs e))

/-- The receiver features: row e is the node table's row named by edge e's receiver word. -/
theorem V3_v1 (hr : ∀ e : Fin 640000, InRange (w3 m c (ix1 e))) (e : Fin 640000) (k : Fin 128) :
    (V3 m ρ c main_v1 : Arr 640000 128) (ix2 e k) = a0 m c (ix2 (rowOf (norm (w3 m c (ix1 e)))) k) :=
  (congrFun (V3_v1_term m ρ c) (ix2 e k)).trans (take_apply (a0 m c) (w3 m c) e k (hr e))

/-! ## The arrays no stretch writes -/

/-- The edge features are as launched. -/
theorem V3_arg1 : (V3 m ρ c main_arg1 : Arr 640000 128) = a1 m c :=
  (W3_keeps m ρ c main_arg1 (by keeps hostOps0_2)).trans ((W2_keeps m ρ c main_arg1 (by keeps hostOps0_1)).trans
    ((W1_keeps m ρ c main_arg1 (by keeps hostOps0)).trans rfl))
/-- The biases are as launched. -/
theorem V3_arg5 : (V3 m ρ c main_arg5 : Arr1 128) = a5 m c :=
  (W3_keeps m ρ c main_arg5 (by keeps hostOps0_2)).trans ((W2_keeps m ρ c main_arg5 (by keeps hostOps0_1)).trans
    ((W1_keeps m ρ c main_arg5 (by keeps hostOps0)).trans rfl))
theorem V3_arg7 : (V3 m ρ c main_arg7 : Arr1 128) = a7 m c :=
  (W3_keeps m ρ c main_arg7 (by keeps hostOps0_2)).trans ((W2_keeps m ρ c main_arg7 (by keeps hostOps0_1)).trans
    ((W1_keeps m ρ c main_arg7 (by keeps hostOps0)).trans rfl))
theorem V3_arg9 : (V3 m ρ c main_arg9 : Arr1 128) = a9 m c :=
  (W3_keeps m ρ c main_arg9 (by keeps hostOps0_2)).trans ((W2_keeps m ρ c main_arg9 (by keeps hostOps0_1)).trans
    ((W1_keeps m ρ c main_arg9 (by keeps hostOps0)).trans rfl))

/-! ## The weights: a format change (the identity on the extended reals), the first one then cut into bands -/

theorem W2_arg4 : (W2 m ρ c (Proc.devRef .tc main_arg4) : Arr 384 128) = a4 m c :=
  (W2_keeps m ρ c main_arg4 (by keeps hostOps0_1)).trans ((W1_keeps m ρ c main_arg4 (by keeps hostOps0)).trans rfl)
theorem W2_arg6 : (W2 m ρ c (Proc.devRef .tc main_arg6) : Arr 128 128) = a6 m c :=
  (W2_keeps m ρ c main_arg6 (by keeps hostOps0_1)).trans ((W1_keeps m ρ c main_arg6 (by keeps hostOps0)).trans rfl)
theorem W2_arg8 : (W2 m ρ c (Proc.devRef .tc main_arg8) : Arr 128 128) = a8 m c :=
  (W2_keeps m ρ c main_arg8 (by keeps hostOps0_1)).trans ((W1_keeps m ρ c main_arg8 (by keeps hostOps0)).trans rfl)

/-- The other two weights are as launched. -/
theorem V3_v6 : (V3 m ρ c main_v6 : Arr 128 128) = a6 m c := by
  have e : (V3 m ρ c main_v6 : Arr 128 128)
      = (truncf .bf16 (W2 m ρ c (Proc.devRef .tc main_arg6) : FVec Ideal S128x128 .f32) Facts₀.bitsLt_bf16_f32 : FVec Ideal S128x128 .bf16) := by
    show (StableHlo.after hostOps0_2 (W2 m ρ c) (Proc.devRef .tc main_v6) : Arr 128 128)
      = (truncf .bf16 (W2 m ρ c (Proc.devRef .tc main_arg6) : FVec Ideal S128x128 .f32) Facts₀.bitsLt_bf16_f32 : FVec Ideal S128x128 .bf16)
    generalize W2 m ρ c = V2
    after_results
    all_goals rfl
  rw [e, W2_arg6]
  rfl
theorem V3_v7 : (V3 m ρ c main_v7 : Arr 128 128) = a8 m c := by
  have e : (V3 m ρ c main_v7 : Arr 128 128)
      = (truncf .bf16 (W2 m ρ c (Proc.devRef .tc main_arg8) : FVec Ideal S128x128 .f32) Facts₀.bitsLt_bf16_f32 : FVec Ideal S128x128 .bf16) := by
    show (StableHlo.after hostOps0_2 (W2 m ρ c) (Proc.devRef .tc main_v7) : Arr 128 128)
      = (truncf .bf16 (W2 m ρ c (Proc.devRef .tc main_arg8) : FVec Ideal S128x128 .f32) Facts₀.bitsLt_bf16_f32 : FVec Ideal S128x128 .bf16)
    generalize W2 m ρ c = V2
    after_results
    all_goals rfl
  rw [e, W2_arg8]
  rfl

/-- The first band as the host operations' term. -/
theorem V3_v3_term : (V3 m ρ c main_v3 : Arr 128 128)
    = extractStridedSlice S128x128 ![0, 0] (truncf .bf16 (a4 m c : FVec Ideal S384x128 .f32) Facts₀.bitsLt_bf16_f32 : FVec Ideal S384x128 .bf16)
        Facts₀.slices_S384x128_S128x128_0_0 := by
  have e : (V3 m ρ c main_v3 : Arr 128 128)
      = extractStridedSlice S128x128 ![0, 0] (truncf .bf16 (W2 m ρ c (Proc.devRef .tc main_arg4) : FVec Ideal S384x128 .f32) Facts₀.bitsLt_bf16_f32 : FVec Ideal S384x128 .bf16)
        Facts₀.slices_S384x128_S128x128_0_0 := by
    show StableHlo.after hostOps0_2 (W2 m ρ c) (Proc.devRef .tc main_v3)
      = extractStridedSlice S128x128 ![0, 0] (truncf .bf16 (W2 m ρ c (Proc.devRef .tc main_arg4) : FVec Ideal S384x128 .f32) Facts₀.bitsLt_bf16_f32 : FVec Ideal S384x128 .bf16)
        Facts₀.slices_S384x128_S128x128_0_0
    generalize W2 m ρ c = V2
    after_results
    all_goals rfl
  rw [e, W2_arg4]
/-- The second band as the host operations' term. -/
theorem V3_v4_term : (V3 m ρ c main_v4 : Arr 128 128)
    = extractStridedSlice S128x128 ![128, 0] (truncf .bf16 (a4 m c : FVec Ideal S384x128 .f32) Facts₀.bitsLt_bf16_f32 : FVec Ideal S384x128 .bf16)
        Facts₀.slices_S384x128_S128x128_128_0 := by
  have e : (V3 m ρ c main_v4 : Arr 128 128)
      = extractStridedSlice S128x128 ![128, 0] (truncf .bf16 (W2 m ρ c (Proc.devRef .tc main_arg4) : FVec Ideal S384x128 .f32) Facts₀.bitsLt_bf16_f32 : FVec Ideal S384x128 .bf16)
        Facts₀.slices_S384x128_S128x128_128_0 := by
    show StableHlo.after hostOps0_2 (W2 m ρ c) (Proc.devRef .tc main_v4)
      = extractStridedSlice S128x128 ![128, 0] (truncf .bf16 (W2 m ρ c (Proc.devRef .tc main_arg4) : FVec Ideal S384x128 .f32) Facts₀.bitsLt_bf16_f32 : FVec Ideal S384x128 .bf16)
        Facts₀.slices_S384x128_S128x128_128_0
    generalize W2 m ρ c = V2
    after_results
    all_goals rfl
  rw [e, W2_arg4]
/-- The third band as the host operations' term. -/
theorem V3_v5_term : (V3 m ρ c main_v5 : Arr 128 128)
    = extractStridedSlice S128x128 ![256, 0] (truncf .bf16 (a4 m c : FVec Ideal S384x128 .f32) Facts₀.bitsLt_bf16_f32 : FVec Ideal S384x128 .bf16)
        Facts₀.slices_S384x128_S128x128_256_0 := by
  have e : (V3 m ρ c main_v5 : Arr 128 128)
      = extractStridedSlice S128x128 ![256, 0] (truncf .bf16 (W2 m ρ c (Proc.devRef .tc main_arg4) : FVec Ideal S384x128 .f32) Facts₀.bitsLt_bf16_f32 : FVec Ideal S384x128 .bf16)
        Facts₀.slices_S384x128_S128x128_256_0 := by
    show StableHlo.after hostOps0_2 (W2 m ρ c) (Proc.devRef .tc main_v5)
      = extractStridedSlice S128x128 ![256, 0] (truncf .bf16 (W2 m ρ c (Proc.devRef .tc main_arg4) : FVec Ideal S384x128 .f32) Facts₀.bitsLt_bf16_f32 : FVec Ideal S384x128 .bf16)
        Facts₀.slices_S384x128_S128x128_256_0
    generalize W2 m ρ c = V2
    after_results
    all_goals rfl
  rw [e, W2_arg4]

/-- The first weight's three bands of 128 rows (a format change is the identity on the extended reals). -/
theorem V3_v3 (k j : Fin 128) : (V3 m ρ c main_v3 : Arr 128 128) (ix2 k j) = a4 m c (ix2 ⟨k.val, by omega⟩ j) :=
  (congrFun (V3_v3_term m ρ c) (ix2 k j)).trans
    (slice2_axis0_apply 0 _ Facts₀.slices_S384x128_S128x128_0_0 k j ⟨k.val, by omega⟩ (Nat.zero_add _).symm)
theorem V3_v4 (k j : Fin 128) : (V3 m ρ c main_v4 : Arr 128 128) (ix2 k j) = a4 m c (ix2 ⟨128 + k.val, by omega⟩ j) :=
  (congrFun (V3_v4_term m ρ c) (ix2 k j)).trans
    (slice2_axis0_apply 128 _ Facts₀.slices_S384x128_S128x128_128_0 k j ⟨128 + k.val, by omega⟩ rfl)
theorem V3_v5 (k j : Fin 128) : (V3 m ρ c main_v5 : Arr 128 128) (ix2 k j) = a4 m c (ix2 ⟨256 + k.val, by omega⟩ j) :=
  (congrFun (V3_v5_term m ρ c) (ix2 k j)).trans
    (slice2_axis0_apply 256 _ Facts₀.slices_S384x128_S128x128_256_0 k j ⟨256 + k.val, by omega⟩ rfl)

end Cert.KernelIdeal.Entry0

end
-- ==== Proof.Value0.lean ====
/-
  What the two kernels leave in their result arrays, from the launch contents.

  Point t of the message kernel's grid writes rows 2560 t … 2560 t + 2559 of the message array, each the message of
  its edge (the body's entry read in Body, the input blocks read off the region-entry contents in Entry0); the 250
  blocks tile the 640000 rows, so the array ends as `msgK`. The node kernel's aggregate input is then the scatter of
  `msgK`, and its point t writes rows 1000 t … 1000 t + 999 of the result, each the new features of its node; the 10
  blocks tile the 10000 rows, so the result array ends as `outK`.
-/
import proofs.«405827_j62749472195028_1_alg».proof.Proof.Gen.KernelIdeal.Frame
import proofs.«405827_j62749472195028_1_alg».proof.Proof.KArgs
import proofs.«405827_j62749472195028_1_alg».proof.Proof.Body
import proofs.«405827_j62749472195028_1_alg».proof.Proof.Entry0
import Idealize.ShloMosaic.Lib.Pipeline.Value
import Idealize.ShloMosaic.Lib.ValueIdx

set_option maxRecDepth 16384

noncomputable section

namespace Cert.KernelIdeal.Value

open Cert.KernelIdeal Cert.KernelIdeal.Gen Cert.KernelIdeal.Args Cert.MsgPass
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-! ## The message kernel's windows: which rows of its array each block is -/

/-- The row windows move one block of 2560 rows per grid point; the weight and bias windows stay. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = t.val ∧ win0_11.index t (1 : Fin 2) = 0) :=
  (by decide +kernel : ∀ t : Fin grid0.N, _)

theorem lt0 (t : Fin cfg0.N) (p : Fin 2560) : 2560 * t.val + p.val < 640000 := by
  have h : t.val < 250 := Nat.lt_of_lt_of_eq t.isLt (show cfg0.N = 250 from N_0)
  have := p.isLt; omega

variable (V : (c : Dev nD) → (b : Ref sig .tc) → Buf (Elt Ideal) ((c : Thread nD τ).loc b))

/-- Row p of the sender block at point t is row 2560 t + p of the sender features. -/
theorem iblk0_0 (t : Fin cfg0.N) (p : Fin 2560) (k : Fin 128) :
    (iblk0 V c 0 t : Arr 2560 128) (ix2 p k) = (V c main_v0 : Arr 640000 128) (ix2 ⟨2560 * t.val + p.val, lt0 t p⟩ k) := by
  obtain ⟨⟨h0, h1⟩, -⟩ := idx0 t
  unfold iblk0
  rw [View.read_apply]
  show (V c main_v0 : Arr 640000 128) _ = _
  congr 1
  funext a
  apply Fin.ext
  match a with
  | ⟨0, _⟩ => show win0_0.index t 0 * 2560 + 1 * p.val = 2560 * t.val + p.val; rw [h0]; omega
  | ⟨1, _⟩ => show win0_0.index t 1 * 128 + 1 * k.val = k.val; rw [h1]; omega

theorem iblk0_1 (t : Fin cfg0.N) (p : Fin 2560) (k : Fin 128) :
    (iblk0 V c 1 t : Arr 2560 128) (ix2 p k) = (V c main_v1 : Arr 640000 128) (ix2 ⟨2560 * t.val + p.val, lt0 t p⟩ k) := by
  obtain ⟨h0, h1⟩ := (idx0 t).2.1
  unfold iblk0
  rw [View.read_apply]
  show (V c main_v1 : Arr 640000 128) _ = _
  congr 1
  funext a
  apply Fin.ext
  match a with
  | ⟨0, _⟩ => show win0_1.index t 0 * 2560 + 1 * p.val = 2560 * t.val + p.val; rw [h0]; omega
  | ⟨1, _⟩ => show win0_1.index t 1 * 128 + 1 * k.val = k.val; rw [h1]; omega

theorem iblk0_2 (t : Fin cfg0.N) (p : Fin 2560) (k : Fin 128) :
    (iblk0 V c 2 t : Arr 2560 128) (ix2 p k) = (V c main_arg1 : Arr 640000 128) (ix2 ⟨2560 * t.val + p.val, lt0 t p⟩ k) := by
  obtain ⟨h0, h1⟩ := (idx0 t).2.2.1
  unfold iblk0
  rw [View.read_apply]
  show (V c main_arg1 : Arr 640000 128) _ = _
  congr 1
  funext a
  apply Fin.ext
  match a with
  | ⟨0, _⟩ => show win0_2.index t 0 * 2560 + 1 * p.val = 2560 * t.val + p.val; rw [h0]; omega
  | ⟨1, _⟩ => show win0_2.index t 1 * 128 + 1 * k.val = k.val; rw [h1]; omega

theorem iblk0_3 (t : Fin cfg0.N) : (iblk0 V c 3 t : Arr 128 128) = (V c main_v3 : Arr 128 128) := by
  obtain ⟨h0, h1⟩ := (idx0 t).2.2.2.1
  funext y
  unfold iblk0
  rw [View.read_apply]
  show (V c main_v3 : Arr 128 128) _ = _
  congr 1
  funext a
  apply Fin.ext
  match a with
  | ⟨0, _⟩ => show win0_3.index t 0 * 128 + 1 * (y 0).val = (y 0).val; rw [h0]; omega
  | ⟨1, _⟩ => show win0_3.index t 1 * 128 + 1 * (y 1).val = (y 1).val; rw [h1]; omega

theorem iblk0_4 (t : Fin cfg0.N) : (iblk0 V c 4 t : Arr 128 128) = (V c main_v4 : Arr 128 128) := by
  obtain ⟨h0, h1⟩ := (idx0 t).2.2.2.2.1
  funext y
  unfold iblk0
  rw [View.read_apply]
  show (V c main_v4 : Arr 128 128) _ = _
  congr 1
  funext a
  apply Fin.ext
  match a with
  | ⟨0, _⟩ => show win0_4.index t 0 * 128 + 1 * (y 0).val = (y 0).val; rw [h0]; omega
  | ⟨1, _⟩ => show win0_4.index t 1 * 128 + 1 * (y 1).val = (y 1).val; rw [h1]; omega

theorem iblk0_5 (t : Fin cfg0.N) : (iblk0 V c 5 t : Arr 128 128) = (V c main_v5 : Arr 128 128) := by
  obtain ⟨h0, h1⟩ := (idx0 t).2.2.2.2.2.1
  funext y
  unfold iblk0
  rw [View.read_apply]
  show (V c main_v5 : Arr 128 128) _ = _
  congr 1
  funext a
  apply Fin.ext
  match a with
  | ⟨0, _⟩ => show win0_5.index t 0 * 128 + 1 * (y 0).val = (y 0).val; rw [h0]; omega
  | ⟨1, _⟩ => show win0_5.index t 1 * 128 + 1 * (y 1).val = (y 1).val; rw [h1]; omega

theorem iblk0_6 (t : Fin cfg0.N) : (iblk0 V c 6 t : Arr1 128) = (V c main_arg5 : Arr1 128) := by
  have h0 := (idx0 t).2.2.2.2.2.2.1
  funext y
  unfold iblk0
  rw [View.read_apply]
  show (V c main_arg5 : Arr1 128) _ = _
  congr 1
  funext a
  apply Fin.ext
  match a with
  | ⟨0, _⟩ => show win0_6.index t 0 * 128 + 1 * (y 0).val = (y 0).val; rw [h0]; omega

theorem iblk0_7 (t : Fin cfg0.N) : (iblk0 V c 7 t : Arr 128 128) = (V c main_v6 : Arr 128 128) := by
  obtain ⟨h0, h1⟩ := (idx0 t).2.2.2.2.2.2.2.1
  funext y
  unfold iblk0
  rw [View.read_apply]
  show (V c main_v6 : Arr 128 128) _ = _
  congr 1
  funext a
  apply Fin.ext
  match a with
  | ⟨0, _⟩ => show win0_7.index t 0 * 128 + 1 * (y 0).val = (y 0).val; rw [h0]; omega
  | ⟨1, _⟩ => show win0_7.index t 1 * 128 + 1 * (y 1).val = (y 1).val; rw [h1]; omega

theorem iblk0_8 (t : Fin cfg0.N) : (iblk0 V c 8 t : Arr1 128) = (V c main_arg7 : Arr1 128) := by
  have h0 := (idx0 t).2.2.2.2.2.2.2.2.1
  funext y
  unfold iblk0
  rw [View.read_apply]
  show (V c main_arg7 : Arr1 128) _ = _
  congr 1
  funext a
  apply Fin.ext
  match a with
  | ⟨0, _⟩ => show win0_8.index t 0 * 128 + 1 * (y 0).val = (y 0).val; rw [h0]; omega

theorem iblk0_9 (t : Fin cfg0.N) : (iblk0 V c 9 t : Arr 128 128) = (V c main_v7 : Arr 128 128) := by
  obtain ⟨h0, h1⟩ := (idx0 t).2.2.2.2.2.2.2.2.2.1
  funext y
  unfold iblk0
  rw [View.read_apply]
  show (V c main_v7 : Arr 128 128) _ = _
  congr 1
  funext a
  apply Fin.ext
  match a with
  | ⟨0, _⟩ => show win0_9.index t 0 * 128 + 1 * (y 0).val = (y 0).val; rw [h0]; omega
  | ⟨1, _⟩ => show win0_9.index t 1 * 128 + 1 * (y 1).val = (y 1).val; rw [h1]; omega

theorem iblk0_10 (t : Fin cfg0.N) : (iblk0 V c 10 t : Arr1 128) = (V c main_arg9 : Arr1 128) := by
  have h0 := (idx0 t).2.2.2.2.2.2.2.2.2.2.1
  funext y
  unfold iblk0
  rw [View.read_apply]
  show (V c main_arg9 : Arr1 128) _ = _
  congr 1
  funext a
  apply Fin.ext
  match a with
  | ⟨0, _⟩ => show win0_10.index t 0 * 128 + 1 * (y 0).val = (y 0).val; rw [h0]; omega

end Cert.KernelIdeal.Value

namespace Cert.KernelIdeal.Value

open Cert.KernelIdeal Cert.KernelIdeal.Gen Cert.KernelIdeal.Args Cert.MsgPass
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-! ## What the message kernel writes back, and its result array -/

/-- Entry (p, q) of what point t writes back is entry q of the message of edge 2560 t + p. -/
theorem flushed0 (hs : ∀ e : Fin 640000, InRange (w2 m c (ix1 e))) (hr : ∀ e : Fin 640000, InRange (w3 m c (ix1 e)))
    (t : Fin cfg0.N) :
    (dat0 (V3 m ρ) c).flushed 11 t = ((cfg0.win 11).blk t).view.read (Elt Ideal) (msgK m c) := by
  obtain ⟨h0, h1⟩ := (idx0 t).2.2.2.2.2.2.2.2.2.2.2
  show (cfg0.win 11).cut (grid0.coords t) ((dat0 (V3 m ρ) c).after 11 t) = _
  rw [after0_11]
  funext y
  obtain ⟨p, q, rfl⟩ : ∃ (p : Fin 2560) (q : Fin 128), y = ix2 p q := ⟨y 0, y 1, eq_ix2 y⟩
  rw [View.read_apply]
  have hemb : ((cfg0.win 11).blk t).view.emb (ix2 p q)
      = (ix2 ⟨2560 * t.val + p.val, lt0 t p⟩ q : (⟨2, ![640000, 128]⟩ : Shape).Idx) := by
    funext a; apply Fin.ext
    match a with
    | ⟨0, _⟩ => show win0_11.index t 0 * 2560 + 1 * p.val = 2560 * t.val + p.val; rw [h0]; omega
    | ⟨1, _⟩ => show win0_11.index t 1 * 128 + 1 * q.val = q.val; rw [h1]; omega
  rw [hemb]
  show out0_11 (iblk0 (V3 m ρ) c 0 t) (iblk0 (V3 m ρ) c 1 t) (iblk0 (V3 m ρ) c 2 t) (iblk0 (V3 m ρ) c 3 t)
      (iblk0 (V3 m ρ) c 4 t) (iblk0 (V3 m ρ) c 5 t) (iblk0 (V3 m ρ) c 6 t) (iblk0 (V3 m ρ) c 7 t) (iblk0 (V3 m ρ) c 8 t)
      (iblk0 (V3 m ρ) c 9 t) (iblk0 (V3 m ρ) c 10 t) (ix2 p q)
    = msgK m c (ix2 ⟨2560 * t.val + p.val, lt0 t p⟩ q)
  refine (Body.out0_apply _ _ _ _ _ _ _ _ _ _ _ p q).trans ?_
  unfold msgK msgArr
  rw [arr2_ix2]
  unfold msgAt
  have e0 : rowAt (iblk0 (V3 m ρ) c 0 t : Arr 2560 128) p
      = rowAt (a0 m c) (rowOf (norm (w2 m c (ix1 ⟨2560 * t.val + p.val, lt0 t p⟩)))) :=
    funext fun k => (iblk0_0 c (V3 m ρ) t p k).trans (Entry0.V3_v0 m ρ c hs _ k)
  have e1 : rowAt (iblk0 (V3 m ρ) c 1 t : Arr 2560 128) p
      = rowAt (a0 m c) (rowOf (norm (w3 m c (ix1 ⟨2560 * t.val + p.val, lt0 t p⟩)))) :=
    funext fun k => (iblk0_1 c (V3 m ρ) t p k).trans (Entry0.V3_v1 m ρ c hr _ k)
  have e2 : rowAt (iblk0 (V3 m ρ) c 2 t : Arr 2560 128) p = rowAt (a1 m c) ⟨2560 * t.val + p.val, lt0 t p⟩ :=
    funext fun k => (iblk0_2 c (V3 m ρ) t p k).trans (congrFun (Entry0.V3_arg1 m ρ c) _)
  have e3 : mat (iblk0 (V3 m ρ) c 3 t : Arr 128 128) = band0 (by omega) (mat (a4 m c)) :=
    funext fun k => funext fun j => (congrFun (iblk0_3 c (V3 m ρ) t) _).trans (Entry0.V3_v3 m ρ c k j)
  have e4 : mat (iblk0 (V3 m ρ) c 4 t : Arr 128 128) = band1 (by omega) (mat (a4 m c)) :=
    funext fun k => funext fun j => (congrFun (iblk0_4 c (V3 m ρ) t) _).trans (Entry0.V3_v4 m ρ c k j)
  have e5 : mat (iblk0 (V3 m ρ) c 5 t : Arr 128 128) = band2 (by omega) (mat (a4 m c)) :=
    funext fun k => funext fun j => (congrFun (iblk0_5 c (V3 m ρ) t) _).trans (Entry0.V3_v5 m ρ c k j)
  have e6 : vec (iblk0 (V3 m ρ) c 6 t : Arr1 128) = vec (a5 m c) := by rw [iblk0_6, Entry0.V3_arg5]
  have e7 : mat (iblk0 (V3 m ρ) c 7 t : Arr 128 128) = mat (a6 m c) := by rw [iblk0_7, Entry0.V3_v6]
  have e8 : vec (iblk0 (V3 m ρ) c 8 t : Arr1 128) = vec (a7 m c) := by rw [iblk0_8, Entry0.V3_arg7]
  have e9 : mat (iblk0 (V3 m ρ) c 9 t : Arr 128 128) = mat (a8 m c) := by rw [iblk0_9, Entry0.V3_v7]
  have e10 : vec (iblk0 (V3 m ρ) c 10 t : Arr1 128) = vec (a9 m c) := by rw [iblk0_10, Entry0.V3_arg9]
  rw [e0, e1, e2, e3, e4, e5, e6, e7, e8, e9, e10]

/-- Every row of the message array is in the block of the point that is its number's quotient by 2560. -/
theorem cover0 (i : (⟨2, ![640000, 128]⟩ : Shape).Idx) :
    ∃ t : Fin cfg0.N, (cfg0.win 11).flush t = true ∧ i ∈ ((cfg0.win 11).blk t).view.set := by
  have hi0 : (i 0).val < 640000 := (i 0).isLt
  have hi1 : (i 1).val < 128 := (i 1).isLt
  have hN : cfg0.N = 250 := N_0
  let t : Fin cfg0.N := ⟨(i 0).val / 2560, by rw [hN]; omega⟩
  obtain ⟨h0, h1⟩ := (idx0 t).2.2.2.2.2.2.2.2.2.2.2
  have ht : t.val = (i 0).val / 2560 := rfl
  refine ⟨t, flush0_11 t, ?_⟩
  show i ∈ ((View.whole main_v8).slice (win0_11.rect t)).set
  rw [View.set_slice_whole, Rect.mem_set_unit]
  intro a
  match a with
  | ⟨0, _⟩ =>
    show win0_11.index t 0 * 2560 ≤ (i 0).val ∧ (i 0).val < win0_11.index t 0 * 2560 + 2560
    rw [h0, ht]; omega
  | ⟨1, _⟩ =>
    show win0_11.index t 1 * 128 ≤ (i 1).val ∧ (i 1).val < win0_11.index t 1 * 128 + 128
    rw [h1]; omega

/-- The message kernel's result array ends holding every edge's message. -/
theorem final0 (hs : ∀ e : Fin 640000, InRange (w2 m c (ix1 e))) (hr : ∀ e : Fin 640000, InRange (w3 m c (ix1 e))) :
    (dat0 (V3 m ρ) c).arrAt 11 cfg0.N = msgK m c :=
  (dat0 (V3 m ρ) c).arrAt_eq_of_cover 11 (msgK m c) (fun t _ => flushed0 m ρ c hs hr t) cover0

end Cert.KernelIdeal.Value

end
-- ==== Proof.Entry1.lean ====
/-
  What the node kernel finds in its twelve input arrays when its region is entered: the node table, biases, scale and
  shift as launched, the weights as launched (the first one band by band), and the aggregate: the accumulating scatter
  of whatever the message kernel left in its result array into a zero table, aimed by the receiver words. And the
  index ranges the precondition states.
-/
import proofs.«405827_j62749472195028_1_alg».proof.Defs
import proofs.«405827_j62749472195028_1_alg».proof.Proof.Gen.KernelIdeal.Frame
import proofs.«405827_j62749472195028_1_alg».proof.Proof.KArgs
import proofs.«405827_j62749472195028_1_alg».proof.Proof.LibGatherRows
import proofs.«405827_j62749472195028_1_alg».proof.Proof.Gen.Pre_finite_inputs
import Idealize.ShloMosaic.Lib.ReduceAll
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout

noncomputable section

namespace Cert.KernelIdeal.Entry1

open Cert.KernelIdeal Cert.KernelIdeal.Gen Cert.KernelIdeal.Args Cert.MsgPass
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A stretch of operations leaves a buffer none of them writes as it was. -/
local macro "not_written" : tactic => `(tactic| (
  refine StableHlo.after_of_forall_not_mem _ _ (List.forall_iff_forall_mem.mp ?_)
  simp only [hostOps0, hostOps0_1, hostOps0_2, hostOps1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- Argument 0 is as launched when the message kernel's region is left: no operation before it and no window of that region writes it. -/
theorem W4_arg0 : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := by not_written
    _ = W1 m ρ c (Proc.devRef .tc main_arg0) := by not_written
    _ = W0 m ρ c (Proc.devRef .tc main_arg0) := by not_written
    _ = m ((c : Thread nD τ).loc main_arg0) := rfl

/-- Argument 3 is as launched when the message kernel's region is left: no operation before it and no window of that region writes it. -/
theorem W4_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by not_written
    _ = W1 m ρ c (Proc.devRef .tc main_arg3) := by not_written
    _ = W0 m ρ c (Proc.devRef .tc main_arg3) := by not_written
    _ = m ((c : Thread nD τ).loc main_arg3) := rfl

/-- Argument 10 is as launched when the message kernel's region is left: no operation before it and no window of that region writes it. -/
theorem W4_arg10 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by not_written
    _ = W1 m ρ c (Proc.devRef .tc main_arg10) := by not_written
    _ = W0 m ρ c (Proc.devRef .tc main_arg10) := by not_written
    _ = m ((c : Thread nD τ).loc main_arg10) := rfl

/-- Argument 11 is as launched when the message kernel's region is left: no operation before it and no window of that region writes it. -/
theorem W4_arg11 : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by not_written
    _ = W1 m ρ c (Proc.devRef .tc main_arg11) := by not_written
    _ = W0 m ρ c (Proc.devRef .tc main_arg11) := by not_written
    _ = m ((c : Thread nD τ).loc main_arg11) := rfl

/-- Argument 12 is as launched when the message kernel's region is left: no operation before it and no window of that region writes it. -/
theorem W4_arg12 : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by not_written
    _ = W1 m ρ c (Proc.devRef .tc main_arg12) := by not_written
    _ = W0 m ρ c (Proc.devRef .tc main_arg12) := by not_written
    _ = m ((c : Thread nD τ).loc main_arg12) := rfl

/-- Argument 13 is as launched when the message kernel's region is left: no operation before it and no window of that region writes it. -/
theorem W4_arg13 : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := by not_written
    _ = W1 m ρ c (Proc.devRef .tc main_arg13) := by not_written
    _ = W0 m ρ c (Proc.devRef .tc main_arg13) := by not_written
    _ = m ((c : Thread nD τ).loc main_arg13) := rfl

/-- Argument 14 is as launched when the message kernel's region is left: no operation before it and no window of that region writes it. -/
theorem W4_arg14 : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := by not_written
    _ = W1 m ρ c (Proc.devRef .tc main_arg14) := by not_written
    _ = W0 m ρ c (Proc.devRef .tc main_arg14) := by not_written
    _ = m ((c : Thread nD τ).loc main_arg14) := rfl

/-- Argument 15 is as launched when the message kernel's region is left: no operation before it and no window of that region writes it. -/
theorem W4_arg15 : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := by not_written
    _ = W1 m ρ c (Proc.devRef .tc main_arg15) := by not_written
    _ = W0 m ρ c (Proc.devRef .tc main_arg15) := by not_written
    _ = m ((c : Thread nD τ).loc main_arg15) := rfl

/-- Argument 16 is as launched when the message kernel's region is left: no operation before it and no window of that region writes it. -/
theorem W4_arg16 : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := by not_written
    _ = W1 m ρ c (Proc.devRef .tc main_arg16) := by not_written
    _ = W0 m ρ c (Proc.devRef .tc main_arg16) := by not_written
    _ = m ((c : Thread nD τ).loc main_arg16) := rfl

/-- Argument 17 is as launched when the message kernel's region is left: no operation before it and no window of that region writes it. -/
theorem W4_arg17 : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := by not_written
    _ = W1 m ρ c (Proc.devRef .tc main_arg17) := by not_written
    _ = W0 m ρ c (Proc.devRef .tc main_arg17) := by not_written
    _ = m ((c : Thread nD τ).loc main_arg17) := rfl

/-- Argument 18 is as launched when the message kernel's region is left: no operation before it and no window of that region writes it. -/
theorem W4_arg18 : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := by not_written
    _ = W1 m ρ c (Proc.devRef .tc main_arg18) := by not_written
    _ = W0 m ρ c (Proc.devRef .tc main_arg18) := by not_written
    _ = m ((c : Thread nD τ).loc main_arg18) := rfl

/-- The node table is as launched. -/
theorem V5_arg0 : (V5 m ρ c main_arg0 : Arr 10000 128) = a0 m c := by
  refine Eq.trans ?_ (W4_arg0 m ρ c)
  show StableHlo.after hostOps1 (W4 m ρ c) (Proc.devRef .tc main_arg0) = _
  not_written

/-- The aggregate is the scatter of the message kernel's result array. -/
theorem V5_v11 : (V5 m ρ c main_v11 : Arr 10000 128)
    = Host.scatterAdd (F := Ideal) scatter_S10000x128_S640000x1_S640000x128_1_0_0_1
        (broadcastInDim S10000x128 ![] Facts₀.bcast_S_S10000x128 (constant (F := Ideal) S_ .f32 0x00000000#32))
        (broadcastInDim S640000x1 ![0] Facts₀.bcast_S640000_S640000x1_0 (w3 m c))
        (W4 m ρ c (Proc.devRef .tc main_v8) : Arr 640000 128) := by
  show StableHlo.after hostOps1 (W4 m ρ c) (Proc.devRef .tc main_v11) = _
  after_results
  rw [W4_arg3 m ρ c]

/-- The first node weight, narrowed: at the extended reals the narrowing changes nothing. -/
theorem V5_v12 : (V5 m ρ c main_v12 : Arr 256 128) = a10 m c := by
  show StableHlo.after hostOps1 (W4 m ρ c) (Proc.devRef .tc main_v12) = _
  after_results
  rw [W4_arg10 m ρ c]
  rfl

/-- The first node weight's two bands of 128 rows. -/
theorem V5_v13 (k j : Fin 128) : (V5 m ρ c main_v13 : Arr 128 128) (ix2 k j) = a10 m c (ix2 ⟨k.val, by omega⟩ j) := by
  have e : (V5 m ρ c main_v13 : Arr 128 128)
      = extractStridedSlice S128x128 ![0, 0] (a10 m c) Facts₀.slices_S256x128_S128x128_0_0 := by
    show StableHlo.after hostOps1 (W4 m ρ c) (Proc.devRef .tc main_v13) = _
    after_results
    rw [W4_arg10 m ρ c]
    rfl
  refine (congrFun e (ix2 k j)).trans ?_
  refine (slice2_axis0_eq 0 (a10 m c) Facts₀.slices_S256x128_S128x128_0_0 k j).trans ?_
  exact congrArg (fun r => a10 m c (ix2 r j)) (Fin.ext (Nat.zero_add k.val))
theorem V5_v14 (k j : Fin 128) : (V5 m ρ c main_v14 : Arr 128 128) (ix2 k j) = a10 m c (ix2 ⟨128 + k.val, by omega⟩ j) := by
  have e : (V5 m ρ c main_v14 : Arr 128 128)
      = extractStridedSlice S128x128 ![128, 0] (a10 m c) Facts₀.slices_S256x128_S128x128_128_0 := by
    show StableHlo.after hostOps1 (W4 m ρ c) (Proc.devRef .tc main_v14) = _
    after_results
    rw [W4_arg10 m ρ c]
    rfl
  refine (congrFun e (ix2 k j)).trans ?_
  exact slice2_axis0_eq 128 (a10 m c) Facts₀.slices_S256x128_S128x128_128_0 k j

theorem V5_arg11 : (V5 m ρ c main_arg11 : Arr1 128) = a11 m c := by
  refine Eq.trans ?_ (W4_arg11 m ρ c)
  show StableHlo.after hostOps1 (W4 m ρ c) (Proc.devRef .tc main_arg11) = _
  not_written

theorem V5_v15 : (V5 m ρ c main_v15 : Arr 128 128) = a12 m c := by
  show StableHlo.after hostOps1 (W4 m ρ c) (Proc.devRef .tc main_v15) = _
  after_results
  rw [W4_arg12 m ρ c]
  rfl

theorem V5_arg13 : (V5 m ρ c main_arg13 : Arr1 128) = a13 m c := by
  refine Eq.trans ?_ (W4_arg13 m ρ c)
  show StableHlo.after hostOps1 (W4 m ρ c) (Proc.devRef .tc main_arg13) = _
  not_written

theorem V5_v16 : (V5 m ρ c main_v16 : Arr 128 128) = a14 m c := by
  show StableHlo.after hostOps1 (W4 m ρ c) (Proc.devRef .tc main_v16) = _
  after_results
  rw [W4_arg14 m ρ c]
  rfl

theorem V5_arg15 : (V5 m ρ c main_arg15 : Arr1 128) = a15 m c := by
  refine Eq.trans ?_ (W4_arg15 m ρ c)
  show StableHlo.after hostOps1 (W4 m ρ c) (Proc.devRef .tc main_arg15) = _
  not_written

theorem V5_v17 : (V5 m ρ c main_v17 : Arr 128 128) = a16 m c := by
  show StableHlo.after hostOps1 (W4 m ρ c) (Proc.devRef .tc main_v17) = _
  after_results
  rw [W4_arg16 m ρ c]
  rfl

theorem V5_arg17 : (V5 m ρ c main_arg17 : Arr1 128) = a17 m c := by
  refine Eq.trans ?_ (W4_arg17 m ρ c)
  show StableHlo.after hostOps1 (W4 m ρ c) (Proc.devRef .tc main_arg17) = _
  not_written

theorem V5_arg18 : (V5 m ρ c main_arg18 : Arr1 128) = a18 m c := by
  refine Eq.trans ?_ (W4_arg18 m ρ c)
  show StableHlo.after hostOps1 (W4 m ρ c) (Proc.devRef .tc main_arg18) = _
  not_written

/-- The shape with no axes has one index. -/
instance subsingleton_scalar_idx : Subsingleton Cert.Pre_finite_inputs.S_.Idx := ⟨fun _ _ => funext fun d => d.elim0⟩

/-- The last stretch of the precondition holds the two index-range conjuncts: when it is one, every sender word and
    every receiver word lies in [0, 10000). -/
theorem part5_ranges (x2 x3 : IVec Cert.Pre_finite_inputs.S640000 32) (X : IVec Cert.Pre_finite_inputs.S_ 1)
    (h : Cert.Pre_finite_inputs.fn_part5 (F := Ideal) x2 x3 X
          (broadcastInDim Cert.Pre_finite_inputs.S640000 ![] Cert.Pre_finite_inputs.Facts.bcast_S_S640000
            (constantI Cert.Pre_finite_inputs.S_ 32 0#32)) ValueIdx.ix0 = 1#1)
    (e : Fin 640000) : InRange (x2 (ix1 e)) ∧ InRange (x3 (ix1 e)) := by
  unfold Cert.Pre_finite_inputs.fn_part5 at h
  dsimp only at h
  obtain ⟨hXS, hR⟩ := IntOp.andi_eq_one.1 h
  obtain ⟨-, hS⟩ := IntOp.andi_eq_one.1 hXS
  have hs := Host.reduce_andi_all _ _ _ _ _ hS (ix1 e)
  have hr := Host.reduce_andi_all _ _ _ _ _ hR (ix1 e)
  obtain ⟨hs0, hs1⟩ := IntOp.andi_eq_one.1 hs
  obtain ⟨hr0, hr1⟩ := IntOp.andi_eq_one.1 hr
  exact And.intro (And.intro hs0 hs1) (And.intro hr0 hr1)

/-- The precondition's two index-range conjuncts on a core. -/
theorem pre_ranges (h : Cert.Pre_KernelIdeal m) (e : Fin 640000) : InRange (w2 m c (ix1 e)) ∧ InRange (w3 m c (ix1 e)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  exact part5_ranges _ _ _ h0 e

/-- The precondition states that every sender word names a row of the table as it stands. -/
theorem pre_senders (h : Cert.Pre_KernelIdeal m) (e : Fin 640000) : InRange (w2 m c (ix1 e)) :=
  (pre_ranges m c h e).1

/-- The precondition states that every receiver word names a row of the table as it stands. -/
theorem pre_receivers (h : Cert.Pre_KernelIdeal m) (e : Fin 640000) : InRange (w3 m c (ix1 e)) :=
  (pre_ranges m c h e).2

end Cert.KernelIdeal.Entry1

end
-- ==== Proof.Value1.lean ====
/-
  What the node kernel leaves in the result array, from the launch contents.

  Its aggregate input is the scatter of the message array the first kernel left (`msgK`), that is `aggK`. Point t of
  its grid writes rows 1000 t … 1000 t + 999 of the result, each the new features of its node (the body's entry read in
  Body, the input blocks read off the region-entry contents in Entry1); the 10 blocks tile the 10000 rows, so the
  result array ends as `outK`, and that is what the program's last boundary holds in it.
-/
import proofs.«405827_j62749472195028_1_alg».proof.Proof.Value0
import proofs.«405827_j62749472195028_1_alg».proof.Proof.Entry1

set_option maxRecDepth 16384

noncomputable section

namespace Cert.KernelIdeal.Value

open Cert.KernelIdeal Cert.KernelIdeal.Gen Cert.KernelIdeal.Args Cert.MsgPass
open Idealize.ShloMosaic Idealize.ShloMosaic.TcCoe Idealize.ShloMosaic.ValueIdx Idealize.SL.Sem
open Idealize.ShloMosaic.Pipeline (Dat Cfg Window)

/-! ## The node kernel's windows: which rows of its array each block is -/

/-- The two row windows and the result window move one block of 1000 rows per grid point; the others stay. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ win1_4.index t (0 : Fin 1) = 0
    ∧ (win1_5.index t (0 : Fin 2) = 0 ∧ win1_5.index t (1 : Fin 2) = 0)
    ∧ win1_6.index t (0 : Fin 1) = 0
    ∧ (win1_7.index t (0 : Fin 2) = 0 ∧ win1_7.index t (1 : Fin 2) = 0)
    ∧ win1_8.index t (0 : Fin 1) = 0
    ∧ (win1_9.index t (0 : Fin 2) = 0 ∧ win1_9.index t (1 : Fin 2) = 0)
    ∧ win1_10.index t (0 : Fin 1) = 0
    ∧ win1_11.index t (0 : Fin 1) = 0
    ∧ (win1_12.index t (0 : Fin 2) = t.val ∧ win1_12.index t (1 : Fin 2) = 0) :=
  (by decide +kernel : ∀ t : Fin grid1.N, _)

theorem lt1 (t : Fin cfg1.N) (p : Fin 1000) : 1000 * t.val + p.val < 10000 := by
  have h : t.val < 10 := Nat.lt_of_lt_of_eq t.isLt (show cfg1.N = 10 from N_1)
  have := p.isLt; omega

section Reads
variable (c : Dev nD) (V : (c : Dev nD) → (b : Ref sig .tc) → Buf (Elt Ideal) ((c : Thread nD τ).loc b))

theorem iblk1_0 (t : Fin cfg1.N) (p : Fin 1000) (k : Fin 128) :
    (iblk1 V c 0 t : Arr 1000 128) (ix2 p k) = (V c main_arg0 : Arr 10000 128) (ix2 ⟨1000 * t.val + p.val, lt1 t p⟩ k) := by
  obtain ⟨h0, h1⟩ := (idx1 t).1
  unfold iblk1
  rw [View.read_apply]
  show (V c main_arg0 : Arr 10000 128) _ = _
  congr 1
  funext a
  apply Fin.ext
  match a with
  | ⟨0, _⟩ => show win1_0.index t 0 * 1000 + 1 * p.val = 1000 * t.val + p.val; rw [h0]; omega
  | ⟨1, _⟩ => show win1_0.index t 1 * 128 + 1 * k.val = k.val; rw [h1]; omega

theorem iblk1_1 (t : Fin cfg1.N) (p : Fin 1000) (k : Fin 128) :
    (iblk1 V c 1 t : Arr 1000 128) (ix2 p k) = (V c main_v11 : Arr 10000 128) (ix2 ⟨1000 * t.val + p.val, lt1 t p⟩ k) := by
  obtain ⟨h0, h1⟩ := (idx1 t).2.1
  unfold iblk1
  rw [View.read_apply]
  show (V c main_v11 : Arr 10000 128) _ = _
  congr 1
  funext a
  apply Fin.ext
  match a with
  | ⟨0, _⟩ => show win1_1.index t 0 * 1000 + 1 * p.val = 1000 * t.val + p.val; rw [h0]; omega
  | ⟨1, _⟩ => show win1_1.index t 1 * 128 + 1 * k.val = k.val; rw [h1]; omega

theorem iblk1_2 (t : Fin cfg1.N) : (iblk1 V c 2 t : Arr 128 128) = (V c main_v13 : Arr 128 128) := by
  obtain ⟨h0, h1⟩ := (idx1 t).2.2.1
  funext y
  unfold iblk1
  rw [View.read_apply]
  show (V c main_v13 : Arr 128 128) _ = _
  congr 1
  funext a
  apply Fin.ext
  match a with
  | ⟨0, _⟩ => show win1_2.index t 0 * 128 + 1 * (y 0).val = (y 0).val; rw [h0]; omega
  | ⟨1, _⟩ => show win1_2.index t 1 * 128 + 1 * (y 1).val = (y 1).val; rw [h1]; omega

theorem iblk1_3 (t : Fin cfg1.N) : (iblk1 V c 3 t : Arr 128 128) = (V c main_v14 : Arr 128 128) := by
  obtain ⟨h0, h1⟩ := (idx1 t).2.2.2.1
  funext y
  unfold iblk1
  rw [View.read_apply]
  show (V c main_v14 : Arr 128 128) _ = _
  congr 1
  funext a
  apply Fin.ext
  match a with
  | ⟨0, _⟩ => show win1_3.index t 0 * 128 + 1 * (y 0).val = (y 0).val; rw [h0]; omega
  | ⟨1, _⟩ => show win1_3.index t 1 * 128 + 1 * (y 1).val = (y 1).val; rw [h1]; omega

theorem iblk1_4 (t : Fin cfg1.N) : (iblk1 V c 4 t : Arr1 128) = (V c main_arg11 : Arr1 128) := by
  have h0 := (idx1 t).2.2.2.2.1
  funext y
  unfold iblk1
  rw [View.read_apply]
  show (V c main_arg11 : Arr1 128) _ = _
  congr 1
  funext a
  apply Fin.ext
  match a with
  | ⟨0, _⟩ => show win1_4.index t 0 * 128 + 1 * (y 0).val = (y 0).val; rw [h0]; omega

theorem iblk1_5 (t : Fin cfg1.N) : (iblk1 V c 5 t : Arr 128 128) = (V c main_v15 : Arr 128 128) := by
  obtain ⟨h0, h1⟩ := (idx1 t).2.2.2.2.2.1
  funext y
  unfold iblk1
  rw [View.read_apply]
  show (V c main_v15 : Arr 128 128) _ = _
  congr 1
  funext a
  apply Fin.ext
  match a with
  | ⟨0, _⟩ => show win1_5.index t 0 * 128 + 1 * (y 0).val = (y 0).val; rw [h0]; omega
  | ⟨1, _⟩ => show win1_5.index t 1 * 128 + 1 * (y 1).val = (y 1).val; rw [h1]; omega

theorem iblk1_6 (t : Fin cfg1.N) : (iblk1 V c 6 t : Arr1 128) = (V c main_arg13 : Arr1 128) := by
  have h0 := (idx1 t).2.2.2.2.2.2.1
  funext y
  unfold iblk1
  rw [View.read_apply]
  show (V c main_arg13 : Arr1 128) _ = _
  congr 1
  funext a
  apply Fin.ext
  match a with
  | ⟨0, _⟩ => show win1_6.index t 0 * 128 + 1 * (y 0).val = (y 0).val; rw [h0]; omega

theorem iblk1_7 (t : Fin cfg1.N) : (iblk1 V c 7 t : Arr 128 128) = (V c main_v16 : Arr 128 128) := by
  obtain ⟨h0, h1⟩ := (idx1 t).2.2.2.2.2.2.2.1
  funext y
  unfold iblk1
  rw [View.read_apply]
  show (V c main_v16 : Arr 128 128) _ = _
  congr 1
  funext a
  apply Fin.ext
  match a with
  | ⟨0, _⟩ => show win1_7.index t 0 * 128 + 1 * (y 0).val = (y 0).val; rw [h0]; omega
  | ⟨1, _⟩ => show win1_7.index t 1 * 128 + 1 * (y 1).val = (y 1).val; rw [h1]; omega

theorem iblk1_8 (t : Fin cfg1.N) : (iblk1 V c 8 t : Arr1 128) = (V c main_arg15 : Arr1 128) := by
  have h0 := (idx1 t).2.2.2.2.2.2.2.2.1
  funext y
  unfold iblk1
  rw [View.read_apply]
  show (V c main_arg15 : Arr1 128) _ = _
  congr 1
  funext a
  apply Fin.ext
  match a with
  | ⟨0, _⟩ => show win1_8.index t 0 * 128 + 1 * (y 0).val = (y 0).val; rw [h0]; omega

theorem iblk1_9 (t : Fin cfg1.N) : (iblk1 V c 9 t : Arr 128 128) = (V c main_v17 : Arr 128 128) := by
  obtain ⟨h0, h1⟩ := (idx1 t).2.2.2.2.2.2.2.2.2.1
  funext y
  unfold iblk1
  rw [View.read_apply]
  show (V c main_v17 : Arr 128 128) _ = _
  congr 1
  funext a
  apply Fin.ext
  match a with
  | ⟨0, _⟩ => show win1_9.index t 0 * 128 + 1 * (y 0).val = (y 0).val; rw [h0]; omega
  | ⟨1, _⟩ => show win1_9.index t 1 * 128 + 1 * (y 1).val = (y 1).val; rw [h1]; omega

theorem iblk1_10 (t : Fin cfg1.N) : (iblk1 V c 10 t : Arr1 128) = (V c main_arg17 : Arr1 128) := by
  have h0 := (idx1 t).2.2.2.2.2.2.2.2.2.2.1
  funext y
  unfold iblk1
  rw [View.read_apply]
  show (V c main_arg17 : Arr1 128) _ = _
  congr 1
  funext a
  apply Fin.ext
  match a with
  | ⟨0, _⟩ => show win1_10.index t 0 * 128 + 1 * (y 0).val = (y 0).val; rw [h0]; omega

theorem iblk1_11 (t : Fin cfg1.N) : (iblk1 V c 11 t : Arr1 128) = (V c main_arg18 : Arr1 128) := by
  have h0 := (idx1 t).2.2.2.2.2.2.2.2.2.2.2.1
  funext y
  unfold iblk1
  rw [View.read_apply]
  show (V c main_arg18 : Arr1 128) _ = _
  congr 1
  funext a
  apply Fin.ext
  match a with
  | ⟨0, _⟩ => show win1_11.index t 0 * 128 + 1 * (y 0).val = (y 0).val; rw [h0]; omega

end Reads

variable (m : (ℓ : Loc nD τ sig) → Buf (Elt Ideal) ℓ) (ρ : Dev nD → PrngReg) (c : Dev nD)

/-! ## The aggregate the node kernel is entered with -/

/-- The node kernel's aggregate input is the scatter of every edge's message. -/
theorem agg_entry (hs : ∀ e : Fin 640000, InRange (w2 m c (ix1 e))) (hr : ∀ e : Fin 640000, InRange (w3 m c (ix1 e))) :
    (V5 m ρ c main_v11 : Arr 10000 128) = aggK m c := by
  rw [Entry1.V5_v11]
  unfold aggK
  rw [show (W4 m ρ c (Proc.devRef .tc main_v8) : Arr 640000 128) = msgK m c from (W4_arr m ρ c 11).trans (final0 m ρ c hs hr)]

/-! ## What the node kernel writes back, and the result array -/

/-- Entry (p, q) of what point t writes back is entry q of the new features of node 1000 t + p. -/
theorem flushed1 (hs : ∀ e : Fin 640000, InRange (w2 m c (ix1 e))) (hr : ∀ e : Fin 640000, InRange (w3 m c (ix1 e)))
    (t : Fin cfg1.N) :
    (dat1 (V5 m ρ) c).flushed 12 t = ((cfg1.win 12).blk t).view.read (Elt Ideal) (outK m c) := by
  obtain ⟨h0, h1⟩ := (idx1 t).2.2.2.2.2.2.2.2.2.2.2.2
  show (cfg1.win 12).cut (grid1.coords t) ((dat1 (V5 m ρ) c).after 12 t) = _
  rw [after1_12]
  funext y
  obtain ⟨p, q, rfl⟩ : ∃ (p : Fin 1000) (q : Fin 128), y = ix2 p q := ⟨y 0, y 1, eq_ix2 y⟩
  rw [View.read_apply]
  have hemb : ((cfg1.win 12).blk t).view.emb (ix2 p q)
      = (ix2 ⟨1000 * t.val + p.val, lt1 t p⟩ q : (⟨2, ![10000, 128]⟩ : Shape).Idx) := by
    funext a; apply Fin.ext
    match a with
    | ⟨0, _⟩ => show win1_12.index t 0 * 1000 + 1 * p.val = 1000 * t.val + p.val; rw [h0]; omega
    | ⟨1, _⟩ => show win1_12.index t 1 * 128 + 1 * q.val = q.val; rw [h1]; omega
  rw [hemb]
  show out1_12 (iblk1 (V5 m ρ) c 0 t) (iblk1 (V5 m ρ) c 1 t) (iblk1 (V5 m ρ) c 2 t) (iblk1 (V5 m ρ) c 3 t)
      (iblk1 (V5 m ρ) c 4 t) (iblk1 (V5 m ρ) c 5 t) (iblk1 (V5 m ρ) c 6 t) (iblk1 (V5 m ρ) c 7 t) (iblk1 (V5 m ρ) c 8 t)
      (iblk1 (V5 m ρ) c 9 t) (iblk1 (V5 m ρ) c 10 t) (iblk1 (V5 m ρ) c 11 t) (ix2 p q)
    = outK m c (ix2 ⟨1000 * t.val + p.val, lt1 t p⟩ q)
  refine (Body.out1_apply _ _ _ _ _ _ _ _ _ _ _ _ p q).trans ?_
  unfold outK outArr
  rw [arr2_ix2]
  unfold outAt
  have e0 : rowAt (iblk1 (V5 m ρ) c 0 t : Arr 1000 128) p = rowAt (a0 m c) ⟨1000 * t.val + p.val, lt1 t p⟩ :=
    funext fun k => (iblk1_0 c (V5 m ρ) t p k).trans (congrFun (Entry1.V5_arg0 m ρ c) _)
  have e1 : rowAt (iblk1 (V5 m ρ) c 1 t : Arr 1000 128) p = rowAt (aggK m c) ⟨1000 * t.val + p.val, lt1 t p⟩ :=
    funext fun k => (iblk1_1 c (V5 m ρ) t p k).trans (congrFun (agg_entry m ρ c hs hr) _)
  have e2 : mat (iblk1 (V5 m ρ) c 2 t : Arr 128 128) = band0 (by omega) (mat (a10 m c)) :=
    funext fun k => funext fun j => (congrFun (iblk1_2 c (V5 m ρ) t) _).trans (Entry1.V5_v13 m ρ c k j)
  have e3 : mat (iblk1 (V5 m ρ) c 3 t : Arr 128 128) = band1 (by omega) (mat (a10 m c)) :=
    funext fun k => funext fun j => (congrFun (iblk1_3 c (V5 m ρ) t) _).trans (Entry1.V5_v14 m ρ c k j)
  have e4 : vec (iblk1 (V5 m ρ) c 4 t : Arr1 128) = vec (a11 m c) := by rw [iblk1_4, Entry1.V5_arg11]
  have e5 : mat (iblk1 (V5 m ρ) c 5 t : Arr 128 128) = mat (a12 m c) := by rw [iblk1_5, Entry1.V5_v15]
  have e6 : vec (iblk1 (V5 m ρ) c 6 t : Arr1 128) = vec (a13 m c) := by rw [iblk1_6, Entry1.V5_arg13]
  have e7 : mat (iblk1 (V5 m ρ) c 7 t : Arr 128 128) = mat (a14 m c) := by rw [iblk1_7, Entry1.V5_v16]
  have e8 : vec (iblk1 (V5 m ρ) c 8 t : Arr1 128) = vec (a15 m c) := by rw [iblk1_8, Entry1.V5_arg15]
  have e9 : mat (iblk1 (V5 m ρ) c 9 t : Arr 128 128) = mat (a16 m c) := by rw [iblk1_9, Entry1.V5_v17]
  have e10 : vec (iblk1 (V5 m ρ) c 10 t : Arr1 128) = vec (a17 m c) := by rw [iblk1_10, Entry1.V5_arg17]
  have e11 : vec (iblk1 (V5 m ρ) c 11 t : Arr1 128) = vec (a18 m c) := by rw [iblk1_11, Entry1.V5_arg18]
  rw [e0, e1, e2, e3, e4, e5, e6, e7, e8, e9, e10, e11]

/-- Every row of the result is in the block of the point that is its number's quotient by 1000. -/
theorem cover1 (i : (⟨2, ![10000, 128]⟩ : Shape).Idx) :
    ∃ t : Fin cfg1.N, (cfg1.win 12).flush t = true ∧ i ∈ ((cfg1.win 12).blk t).view.set := by
  have hi0 : (i 0).val < 10000 := (i 0).isLt
  have hi1 : (i 1).val < 128 := (i 1).isLt
  have hN : cfg1.N = 10 := N_1
  let t : Fin cfg1.N := ⟨(i 0).val / 1000, by rw [hN]; omega⟩
  obtain ⟨h0, h1⟩ := (idx1 t).2.2.2.2.2.2.2.2.2.2.2.2
  have ht : t.val = (i 0).val / 1000 := rfl
  refine ⟨t, flush1_12 t, ?_⟩
  show i ∈ ((View.whole main_v18).slice (win1_12.rect t)).set
  rw [View.set_slice_whole, Rect.mem_set_unit]
  intro a
  match a with
  | ⟨0, _⟩ =>
    show win1_12.index t 0 * 1000 ≤ (i 0).val ∧ (i 0).val < win1_12.index t 0 * 1000 + 1000
    rw [h0, ht]; omega
  | ⟨1, _⟩ =>
    show win1_12.index t 1 * 128 ≤ (i 1).val ∧ (i 1).val < win1_12.index t 1 * 128 + 128
    rw [h1]; omega

/-- The node kernel's result array ends holding every node's new features. -/
theorem final1 (hs : ∀ e : Fin 640000, InRange (w2 m c (ix1 e))) (hr : ∀ e : Fin 640000, InRange (w3 m c (ix1 e))) :
    (dat1 (V5 m ρ) c).arrAt 12 cfg1.N = outK m c :=
  (dat1 (V5 m ρ) c).arrAt_eq_of_cover 12 (outK m c) (fun t _ => flushed1 m ρ c hs hr t) cover1

/-- The program's last boundary holds the message-passing step's result in the result array. -/
theorem result_eq (hs : ∀ e : Fin 640000, InRange (w2 m c (ix1 e))) (hr : ∀ e : Fin 640000, InRange (w3 m c (ix1 e))) :
    W6 m ρ c (Proc.devRef .tc main_v18) = outK m c :=
  (W6_arr m ρ c 12).trans (final1 m ρ c hs hr)

end Cert.KernelIdeal.Value

end
-- ==== Proof.LibConcatCols.lean ====
/-
  A concatenation along the columns, read at an index.

  Pieces of rank 2 laid side by side along axis 1: the result at `(r, c)` is the piece whose span of columns holds
  `c`, read at row `r` and at `c` less the widths of the pieces before it.  `PiecesRead P pre xs` says that every
  piece of `xs`, the first one starting at column `pre`, agrees with one function `P` of the row and of the column in
  the result; then the concatenation is `P` (`concatenate_cols_apply`).
-/
import Idealize.ShloMosaic.Lib.Pipeline.Value

noncomputable section

namespace Idealize.ShloMosaic.ConcatCols

variable {α : Type}

/-- The extent of a rank-2 shape along its columns (0 for another rank). -/
def width (s : Shape) : Nat := if h : s.rank = 2 then s.size (Fin.cast h.symm 1) else 0

/-- Every piece of the list, laid from column `pre` on, reads as `P row column`. -/
def PiecesRead (P : Nat → Nat → α) : Nat → List ((s : Shape) × (s.Idx → α)) → Prop
  | _, [] => True
  | pre, p :: xs =>
    (∃ h : p.1.rank = 2, ∀ i : p.1.Idx, p.2 i = P (i (Fin.cast h.symm 0)).val (pre + (i (Fin.cast h.symm 1)).val))
      ∧ PiecesRead P (pre + width p.1) xs

/-- A position under the sum of a list of extents falls in the span of one of them. -/
theorem exists_span : ∀ (ns : List Nat) (c : Nat), c < ns.sum →
    ∃ k, ∃ hk : k < ns.length, (ns.take k).sum ≤ c ∧ c < (ns.take k).sum + ns[k]
  | [], c, h => absurd h (by simp)
  | n :: ns, c, h => by
    by_cases hc : c < n
    · exact ⟨0, by simp, by simp, by simpa using hc⟩
    · rw [List.sum_cons] at h
      obtain ⟨k, hk, lo, hi⟩ := exists_span ns (c - n) (by omega)
      refine ⟨k + 1, by simpa using hk, ?_, ?_⟩
      · simp only [List.take_succ_cons, List.sum_cons]; omega
      · simp only [List.take_succ_cons, List.sum_cons, List.getElem_cons_succ]; omega

/-- The `k`-th piece of a list whose pieces read as `P` from column `pre` on reads as `P` from column `pre` plus the
    widths of the pieces before it. -/
theorem PiecesRead.piece (P : Nat → Nat → α) : ∀ (xs : List ((s : Shape) × (s.Idx → α))) (pre : Nat),
    PiecesRead P pre xs → ∀ (k : Nat) (hk : k < xs.length), ∃ h2 : xs[k].1.rank = 2, ∀ i : xs[k].1.Idx,
      xs[k].2 i = P (i (Fin.cast h2.symm 0)).val
        (pre + ((xs.take k).map fun p => width p.1).sum + (i (Fin.cast h2.symm 1)).val)
  | [], _, _, k, hk => absurd hk (by simp)
  | p :: xs, pre, H, 0, _ => by
    have H' : (∃ h : p.1.rank = 2, ∀ i : p.1.Idx,
        p.2 i = P (i (Fin.cast h.symm 0)).val (pre + (i (Fin.cast h.symm 1)).val))
        ∧ PiecesRead P (pre + width p.1) xs := H
    obtain ⟨h2, hi⟩ := H'.1
    exact ⟨h2, fun i => by simpa using hi i⟩
  | p :: xs, pre, H, k + 1, hk => by
    have H' : (∃ h : p.1.rank = 2, ∀ i : p.1.Idx,
        p.2 i = P (i (Fin.cast h.symm 0)).val (pre + (i (Fin.cast h.symm 1)).val))
        ∧ PiecesRead P (pre + width p.1) xs := H
    have hk' : k < xs.length := by simpa using hk
    obtain ⟨h2, hi⟩ := PiecesRead.piece P xs (pre + width p.1) H'.2 k hk'
    refine ⟨h2, fun i => ?_⟩
    have e := hi i
    simp only [List.take_succ_cons, List.map_cons, List.sum_cons]
    have ea : pre + (width p.1 + ((xs.take k).map fun p => width p.1).sum)
        = pre + width p.1 + ((xs.take k).map fun p => width p.1).sum := by omega
    rw [ea]
    exact e

/-- A concatenation along the columns whose pieces all read as `P` is `P`. -/
theorem concatenate_cols_apply {sz : Fin 2 → Nat} (xs : List ((s : Shape) × (s.Idx → α)))
    (h : Shape.Concatenates (xs.map (·.1)) ⟨2, sz⟩ 1) (P : Nat → Nat → α) (H : PiecesRead P 0 xs)
    (j : (⟨2, sz⟩ : Shape).Idx) : concatenate ⟨2, sz⟩ 1 xs h j = P (j 0).val (j 1).val := by
  -- the extents of the pieces along the axis are their widths, and sum to the extent of the result
  have hsum : ((xs.map (·.1)).map width).sum = sz 1 := h.2.2
  have hc : (j 1).val < ((xs.map (·.1)).map width).sum := by rw [hsum]; exact (j 1).isLt
  obtain ⟨k, hk, lo, hi⟩ := exists_span _ _ hc
  have hk' : k < xs.length := by simpa using hk
  obtain ⟨h2, Hk⟩ := PiecesRead.piece P xs 0 H k hk'
  -- the widths before piece `k`, and its own
  have hpre : ((xs.map (·.1)).map width).take k = (xs.take k).map fun p => width p.1 := by
    rw [List.map_map, List.map_take]; rfl
  have hnk : ((xs.map (·.1)).map width)[k] = width xs[k].1 := by simp
  rw [hpre] at lo hi
  rw [hnk] at hi
  have hw : width xs[k].1 = xs[k].1.size (Fin.cast h2.symm 1) := by unfold width; rw [dif_pos h2]
  -- off the axis the piece has the extent of the result
  have hm : xs[k].1 ∈ xs.map (·.1) := List.mem_map.2 ⟨_, List.getElem_mem hk', rfl⟩
  obtain ⟨h2', hb⟩ := h.2.1 _ hm
  have hoff : xs[k].1.size (Fin.cast h2.symm 0) = sz 0 := hb 0 (show (0 : Fin 2) ≠ 1 by decide)
  -- the index of piece `k`: the row of `j`, and the column of `j` less the widths before the piece
  have hlt1 : (j 1).val - ((xs.take k).map fun p => width p.1).sum < xs[k].1.size (Fin.cast h2.symm 1) := by
    rw [← hw]; omega
  have hlt0 : (j 0).val < xs[k].1.size (Fin.cast h2.symm 0) := by rw [hoff]; exact (j 0).isLt
  let i : xs[k].1.Idx := fun b =>
    if hb1 : b.cast h2 = 1 then
      ⟨(j 1).val - ((xs.take k).map fun p => width p.1).sum, by
        have e : b = Fin.cast h2.symm 1 := by
          apply Fin.ext
          have hv : (b.cast h2).val = (1 : Fin 2).val := congrArg Fin.val hb1
          exact hv
        rw [e]; exact hlt1⟩
    else
      ⟨(j 0).val, by
        have e : b = Fin.cast h2.symm 0 := by
          apply Fin.ext
          have hv : (b.cast h2).val ≠ 1 := fun hv => hb1 (Fin.ext hv)
          have := (b.cast h2).isLt
          show (b.cast h2).val = 0
          omega
        rw [e]; exact hlt0⟩
  have e0 : (i (Fin.cast h2.symm 0)).val = (j 0).val := by
    have hne : ¬ (Fin.cast h2.symm 0 : Fin xs[k].1.rank).cast h2 = 1 := fun e =>
      absurd (show (0 : Nat) = 1 from congrArg Fin.val e) (by decide)
    simp only [i, dif_neg hne]
  have e1 : (i (Fin.cast h2.symm 1)).val = (j 1).val - ((xs.take k).map fun p => width p.1).sum := by
    have heq : (Fin.cast h2.symm 1 : Fin xs[k].1.rank).cast h2 = 1 := rfl
    simp only [i, dif_pos heq]
  -- the concatenation reads piece `k` at that index, and the piece reads as `P`
  have hcat := concatenate_apply_piece (t := ⟨2, sz⟩) 1 xs h j k hk' xs[k].1 xs[k].2 rfl h2
    (((xs.take k).map fun p => width p.1).sum) (by rw [List.map_map]; rfl) i
    (fun b hbn => by
      have hv : (b.cast h2).val ≠ 1 := fun hv => hbn (Fin.ext hv)
      have := (b.cast h2).isLt
      have e : b = Fin.cast h2.symm 0 := by
        apply Fin.ext
        show (b.cast h2).val = 0
        omega
      rw [e, e0]; rfl)
    (by
      show ((xs.take k).map fun p => width p.1).sum + (i (Fin.cast h2.symm 1)).val = (j 1).val
      rw [e1]; omega)
  rw [hcat, Hk i, e0, e1]
  congr 1
  omega

end Idealize.ShloMosaic.ConcatCols

end
-- ==== Proof.RefValue.lean ====
/-
  The reference program's message stage and aggregate stage, as the message-passing step of Arrays: its message
  stage is `msgArr`, and its aggregate the accumulating scatter of the messages into a zero table. The gathers read
  whole rows of the node table (the index word with a negative one counted from the end, clamped into the table); the
  concatenation along the columns meets the first dense layer through `lin_cat3_bands`.
-/
import proofs.«405827_j62749472195028_1_alg».proof.Proof.Gen.ReferenceIdeal.Read
import proofs.«405827_j62749472195028_1_alg».proof.Proof.Arrays
import proofs.«405827_j62749472195028_1_alg».proof.Proof.LibGatherRows
import proofs.«405827_j62749472195028_1_alg».proof.Proof.LibConcatCols
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Read Cert.MsgPass
open Idealize.ShloMosaic Idealize.ShloMosaic.ValueIdx Idealize.ShloMosaic.ConcatCols
open scoped BigOperators

/-! ### A gather of table rows, read at an entry -/

theorem gather_row_at {M : ℕ} (d : GatherDims ⟨2, ![10000, 128]⟩ ⟨2, ![M, 1]⟩ ⟨2, ![M, 128]⟩)
    (hoff : d.offsetDims = [1]) (hcoll : d.collapsedSliceDims = [0]) (hob : d.operandBatchingDims = [])
    (hsim : d.startIndexMap = [0]) (hivd : d.indexVectorDim = 1)
    (x : Arr 10000 128) (idx : IVec ⟨2, ![M, 1]⟩ 32) (e : Fin M) (k : Fin 128) (w : BitVec 32)
    (hw : idx (ix2 e 0) = w) :
    Host.gather d x idx (ix2 e k) = rowAt x (rowOf w) k := by
  refine (GraphOps.gather_rows2 d hoff hcoll hob hsim hivd x idx e k (by decide)).trans ?_
  subst hw
  rfl

/-! ### Pieces laid side by side, read at an entry -/

/-- What three pieces laid side by side read as, on natural coordinates. -/
def cat3P {n : ℕ} (a b c : Arr n 128) : ℕ → ℕ → EReal := fun row col =>
  if hr : row < n then
    (if hc : col < 384 then cat3 (rowAt a ⟨row, hr⟩) (rowAt b ⟨row, hr⟩) (rowAt c ⟨row, hr⟩) ⟨col, hc⟩ else 0)
  else 0

theorem cat3P_at {n : ℕ} (a b c : Arr n 128) (e : Fin n) (k : Fin 384) :
    cat3P a b c e.val k.val = cat3 (rowAt a e) (rowAt b e) (rowAt c e) k := by
  unfold cat3P
  rw [dif_pos e.isLt, dif_pos k.isLt]

theorem width_128 (n : ℕ) : width (⟨2, ![n, 128]⟩ : Shape) = 128 := by
  unfold width
  rw [dif_pos rfl]
  rfl

theorem piecesRead3 {n : ℕ} (a b c : Arr n 128) :
    PiecesRead (cat3P a b c) 0
      [⟨(⟨2, ![n, 128]⟩ : Shape), a⟩, ⟨(⟨2, ![n, 128]⟩ : Shape), b⟩, ⟨(⟨2, ![n, 128]⟩ : Shape), c⟩] := by
  simp only [PiecesRead, width_128]
  refine ⟨⟨trivial, fun i => ?_⟩, ⟨trivial, fun i => ?_⟩, ⟨trivial, fun i => ?_⟩, trivial⟩
  · obtain ⟨e, k, rfl⟩ : ∃ (e : Fin n) (k : Fin 128), i = ix2 e k := ⟨i 0, i 1, eq_ix2 i⟩
    show a (ix2 e k) = cat3P a b c e.val (0 + k.val)
    rw [Nat.zero_add]
    refine Eq.trans ?_ (cat3P_at a b c e ⟨k.val, by omega⟩).symm
    simp only [cat3, k.isLt, dite_true]
    rfl
  · obtain ⟨e, k, rfl⟩ : ∃ (e : Fin n) (k : Fin 128), i = ix2 e k := ⟨i 0, i 1, eq_ix2 i⟩
    show b (ix2 e k) = cat3P a b c e.val (0 + 128 + k.val)
    rw [Nat.zero_add]
    refine Eq.trans ?_ (cat3P_at a b c e ⟨128 + k.val, by omega⟩).symm
    have h1 : ¬ (128 + k.val < 128) := by omega
    have h2 : 128 + k.val < 256 := by omega
    simp only [cat3, h1, h2, dite_true, dite_false, Nat.add_sub_cancel_left]
    rfl
  · obtain ⟨e, k, rfl⟩ : ∃ (e : Fin n) (k : Fin 128), i = ix2 e k := ⟨i 0, i 1, eq_ix2 i⟩
    show c (ix2 e k) = cat3P a b c e.val (0 + 128 + 128 + k.val)
    rw [show 0 + 128 + 128 + k.val = 256 + k.val by omega]
    refine Eq.trans ?_ (cat3P_at a b c e ⟨256 + k.val, by omega⟩).symm
    have h1 : ¬ (256 + k.val < 128) := by omega
    have h2 : ¬ (256 + k.val < 256) := by omega
    simp only [cat3, h1, h2, dite_false, Nat.add_sub_cancel_left]
    rfl

/-- Three arrays joined along the columns, at row e: the three rows laid end to end. -/
theorem concat3_at {n : ℕ}
    (h : Shape.Concatenates [(⟨2, ![n, 128]⟩ : Shape), ⟨2, ![n, 128]⟩, ⟨2, ![n, 128]⟩] ⟨2, ![n, 384]⟩ 1)
    (a b c : Arr n 128) (e : Fin n) (k : Fin 384) :
    concatenate (⟨2, ![n, 384]⟩ : Shape) 1
        [⟨(⟨2, ![n, 128]⟩ : Shape), a⟩, ⟨(⟨2, ![n, 128]⟩ : Shape), b⟩, ⟨(⟨2, ![n, 128]⟩ : Shape), c⟩] h (ix2 e k)
      = cat3 (rowAt a e) (rowAt b e) (rowAt c e) k :=
  (concatenate_cols_apply (sz := ![n, 384])
    [⟨(⟨2, ![n, 128]⟩ : Shape), a⟩, ⟨(⟨2, ![n, 128]⟩ : Shape), b⟩, ⟨(⟨2, ![n, 128]⟩ : Shape), c⟩] h (cat3P a b c) (piecesRead3 a b c) (ix2 e k)).trans (cat3P_at a b c e k)

variable (x0 : Arr 10000 128) (x1 : Arr 640000 128) (x2 x3 : Words 640000) (x4 : Arr 384 128) (x5 : Arr1 128)
  (x6 : Arr 128 128) (x7 : Arr1 128) (x8 : Arr 128 128) (x9 : Arr1 128)

/-! ### The index words: a negative word counted from the table's end -/

theorem idx5_at (e : Fin 640000) : idx_main_v5 (ix2 e (0 : Fin 1)) = ix1 e := funext fun a => Fin.ext (by match a with | ⟨0, _⟩ => rfl)
theorem idx12_at (e : Fin 640000) : idx_main_v12 (ix2 e (0 : Fin 1)) = ix1 e := funext fun a => Fin.ext (by match a with | ⟨0, _⟩ => rfl)

/-- The sender column at edge e is the sender word, normalised. -/
theorem v5_at (e : Fin 640000) : val_main_v5 (F := Ideal) x2 (ix2 e (0 : Fin 1)) = norm (x2 (ix1 e)) := by
  rw [val_main_v5_apply, val_main_v4_apply, val_main_v1_apply, val_main_v3_apply, val_main_v0_apply, val_main_v2_apply,
    val_main_c_apply, val_main_c_0_apply, idx5_at]
  rfl

/-- The receiver column at edge e is the receiver word, normalised. -/
theorem v12_at (e : Fin 640000) : val_main_v12 (F := Ideal) x3 (ix2 e (0 : Fin 1)) = norm (x3 (ix1 e)) := by
  rw [val_main_v12_apply, val_main_v11_apply, val_main_v8_apply, val_main_v10_apply, val_main_v7_apply, val_main_v9_apply,
    val_main_c_1_apply, val_main_c_2_apply, idx12_at]
  rfl

/-! ### The gathered rows and their concatenation with the edge features -/

theorem v6_at (e : Fin 640000) (k : Fin 128) :
    val_main_v6 (F := Ideal) x0 x2 (ix2 e k) = rowAt x0 (rowOf (norm (x2 (ix1 e)))) k := by
  unfold val_main_v6
  exact gather_row_at _ rfl rfl rfl rfl rfl x0 _ e k _ (v5_at x2 e)

theorem v13_at (e : Fin 640000) (k : Fin 128) :
    val_main_v13 (F := Ideal) x0 x3 (ix2 e k) = rowAt x0 (rowOf (norm (x3 (ix1 e)))) k := by
  unfold val_main_v13
  exact gather_row_at _ rfl rfl rfl rfl rfl x0 _ e k _ (v12_at x3 e)

theorem v14_at (e : Fin 640000) (k : Fin 384) :
    val_main_v14 (F := Ideal) x0 x1 x2 x3 (ix2 e k) = cat3 (rowAt x0 (rowOf (norm (x2 (ix1 e))))) (rowAt x0 (rowOf (norm (x3 (ix1 e))))) (rowAt x1 e) k := by
  unfold val_main_v14
  refine (concat3_at _ _ _ _ e k).trans ?_
  rw [show rowAt (val_main_v6 (F := Ideal) x0 x2) e = rowAt x0 (rowOf (norm (x2 (ix1 e)))) from
      funext fun k => v6_at x0 x2 e k,
    show rowAt (val_main_v13 (F := Ideal) x0 x3) e = rowAt x0 (rowOf (norm (x3 (ix1 e)))) from
      funext fun k => v13_at x0 x3 e k]

/-! ### The perceptron, layer by layer, at edge e and feature j -/

theorem lidx15_at (e : Fin 640000) (j : Fin 128) (k : Fin 384) : lidx_main_v15 (ix2 e j) k = ix2 e k := funext fun a => Fin.ext (by match a with | ⟨0, _⟩ => rfl | ⟨1, _⟩ => rfl)
theorem ridx15_at (e : Fin 640000) (j : Fin 128) (k : Fin 384) : ridx_main_v15 (ix2 e j) k = ix2 k j := funext fun a => Fin.ext (by match a with | ⟨0, _⟩ => rfl | ⟨1, _⟩ => rfl)
theorem lidx20_at (e : Fin 640000) (j : Fin 128) (k : Fin 128) : lidx_main_v20 (ix2 e j) k = ix2 e k := funext fun a => Fin.ext (by match a with | ⟨0, _⟩ => rfl | ⟨1, _⟩ => rfl)
theorem ridx20_at (e : Fin 640000) (j : Fin 128) (k : Fin 128) : ridx_main_v20 (ix2 e j) k = ix2 k j := funext fun a => Fin.ext (by match a with | ⟨0, _⟩ => rfl | ⟨1, _⟩ => rfl)
theorem lidx25_at (e : Fin 640000) (j : Fin 128) (k : Fin 128) : lidx_main_v25 (ix2 e j) k = ix2 e k := funext fun a => Fin.ext (by match a with | ⟨0, _⟩ => rfl | ⟨1, _⟩ => rfl)
theorem ridx25_at (e : Fin 640000) (j : Fin 128) (k : Fin 128) : ridx_main_v25 (ix2 e j) k = ix2 k j := funext fun a => Fin.ext (by match a with | ⟨0, _⟩ => rfl | ⟨1, _⟩ => rfl)

/-- The first layer's product: the three pieces against the three bands of the first weight. -/
theorem v15_at (e : Fin 640000) (j : Fin 128) :
    val_main_v15 (F := Ideal) x0 x1 x2 x3 x4 (ix2 e j) = (lin3 (rowAt x0 (rowOf (norm (x2 (ix1 e))))) (rowAt x0 (rowOf (norm (x3 (ix1 e))))) (rowAt x1 e)
        (band0 (by omega) (mat x4)) (band1 (by omega) (mat x4)) (band2 (by omega) (mat x4))) j := by
  rw [val_main_v15_apply]
  refine Eq.trans ?_ (lin_cat3_bands _ _ _ (mat x4) j)
  unfold lin
  refine Finset.sum_congr rfl fun k _ => ?_
  rw [lidx15_at, ridx15_at, v14_at]
  rfl

theorem v17_at (e : Fin 640000) (j : Fin 128) : val_main_v17 (F := Ideal) x5 (ix2 e j) = vec x5 j := by
  rw [val_main_v17_apply, val_main_v16_apply]
  exact congrArg x5 (funext fun a => Fin.ext (by match a with | ⟨0, _⟩ => rfl))

theorem v22_at (e : Fin 640000) (j : Fin 128) : val_main_v22 (F := Ideal) x7 (ix2 e j) = vec x7 j := by
  rw [val_main_v22_apply, val_main_v21_apply]
  exact congrArg x7 (funext fun a => Fin.ext (by match a with | ⟨0, _⟩ => rfl))

theorem v27_at (e : Fin 640000) (j : Fin 128) : val_main_v27 (F := Ideal) x9 (ix2 e j) = vec x9 j := by
  rw [val_main_v27_apply, val_main_v26_apply]
  exact congrArg x9 (funext fun a => Fin.ext (by match a with | ⟨0, _⟩ => rfl))

theorem zero0_at (i : S640000x128.Idx) : val_main_call0_v0 (F := Ideal) i = 0 := by
  rw [val_main_call0_v0_apply, val_main_call0_cst_apply, Ideal.ofBits_def, Ideal.ofBits_zero_f32]

theorem zero1_at (i : S640000x128.Idx) : val_main_call1_v0 (F := Ideal) i = 0 := by
  rw [val_main_call1_v0_apply, val_main_call1_cst_apply, Ideal.ofBits_def, Ideal.ofBits_zero_f32]

/-- The first hidden layer. -/
theorem v19_at (e : Fin 640000) (j : Fin 128) :
    val_main_v19 (F := Ideal) x0 x1 x2 x3 x4 x5 (ix2 e j) = (relu fun j => (lin3 (rowAt x0 (rowOf (norm (x2 (ix1 e))))) (rowAt x0 (rowOf (norm (x3 (ix1 e))))) (rowAt x1 e)
        (band0 (by omega) (mat x4)) (band1 (by omega) (mat x4)) (band2 (by omega) (mat x4))) j + vec x5 j) j := by
  rw [val_main_v19_apply, val_main_v18_apply, v15_at, v17_at, zero0_at]
  rfl

theorem v20_at (e : Fin 640000) (j : Fin 128) :
    val_main_v20 (F := Ideal) x0 x1 x2 x3 x4 x5 x6 (ix2 e j) = lin (relu fun j => (lin3 (rowAt x0 (rowOf (norm (x2 (ix1 e))))) (rowAt x0 (rowOf (norm (x3 (ix1 e))))) (rowAt x1 e)
        (band0 (by omega) (mat x4)) (band1 (by omega) (mat x4)) (band2 (by omega) (mat x4))) j + vec x5 j) (mat x6) j := by
  rw [val_main_v20_apply]
  refine Eq.trans ?_ (show (∑ k : Fin 128, (relu fun j => (lin3 (rowAt x0 (rowOf (norm (x2 (ix1 e))))) (rowAt x0 (rowOf (norm (x3 (ix1 e))))) (rowAt x1 e)
        (band0 (by omega) (mat x4)) (band1 (by omega) (mat x4)) (band2 (by omega) (mat x4))) j + vec x5 j) k * mat x6 k j) = _ from rfl)
  refine Finset.sum_congr rfl fun k _ => ?_
  rw [lidx20_at, ridx20_at, v19_at]
  rfl

/-- The second hidden layer. -/
theorem v24_at (e : Fin 640000) (j : Fin 128) :
    val_main_v24 (F := Ideal) x0 x1 x2 x3 x4 x5 x6 x7 (ix2 e j) = (relu fun j => lin (relu fun j => (lin3 (rowAt x0 (rowOf (norm (x2 (ix1 e))))) (rowAt x0 (rowOf (norm (x3 (ix1 e))))) (rowAt x1 e)
        (band0 (by omega) (mat x4)) (band1 (by omega) (mat x4)) (band2 (by omega) (mat x4))) j + vec x5 j) (mat x6) j + vec x7 j) j := by
  rw [val_main_v24_apply, val_main_v23_apply, v20_at, v22_at, zero1_at]
  rfl

theorem v25_at (e : Fin 640000) (j : Fin 128) :
    val_main_v25 (F := Ideal) x0 x1 x2 x3 x4 x5 x6 x7 x8 (ix2 e j) = lin (relu fun j => lin (relu fun j => (lin3 (rowAt x0 (rowOf (norm (x2 (ix1 e))))) (rowAt x0 (rowOf (norm (x3 (ix1 e))))) (rowAt x1 e)
        (band0 (by omega) (mat x4)) (band1 (by omega) (mat x4)) (band2 (by omega) (mat x4))) j + vec x5 j) (mat x6) j + vec x7 j) (mat x8) j := by
  rw [val_main_v25_apply]
  refine Eq.trans ?_ (show (∑ k : Fin 128, (relu fun j => lin (relu fun j => (lin3 (rowAt x0 (rowOf (norm (x2 (ix1 e))))) (rowAt x0 (rowOf (norm (x3 (ix1 e))))) (rowAt x1 e)
        (band0 (by omega) (mat x4)) (band1 (by omega) (mat x4)) (band2 (by omega) (mat x4))) j + vec x5 j) (mat x6) j + vec x7 j) k * mat x8 k j) = _ from rfl)
  refine Finset.sum_congr rfl fun k _ => ?_
  rw [lidx25_at, ridx25_at, v24_at]
  rfl

/-- The message stage at edge e and feature j. -/
theorem v28_at (e : Fin 640000) (j : Fin 128) :
    val_main_v28 (F := Ideal) x0 x1 x2 x3 x4 x5 x6 x7 x8 x9 (ix2 e j) = msgAt x0 x1 x2 x3 x4 x5 x6 x7 x8 x9 e j := by
  rw [val_main_v28_apply, v25_at, v27_at]
  rfl

/-- The message stage (the last dense layer of the message perceptron, main_v28) is `msgArr`. -/
theorem ref_msg : (val_main_v28 (F := Ideal) x0 x1 x2 x3 x4 x5 x6 x7 x8 x9 : Arr 640000 128)
    = msgArr x0 x1 x2 x3 x4 x5 x6 x7 x8 x9 := by
  funext i
  obtain ⟨e, j, rfl⟩ : ∃ (e : Fin 640000) (j : Fin 128), i = ix2 e j := ⟨i 0, i 1, eq_ix2 i⟩
  rw [v28_at]
  rfl

/-- The aggregate stage (main_v31) is the accumulating scatter of `msgArr` into a zero table, aimed by the receiver words. -/
theorem ref_agg : (val_main_v31 (F := Ideal) x0 x1 x2 x3 x4 x5 x6 x7 x8 x9 : Arr 10000 128)
    = Host.scatterAdd (F := Ideal) scatter_S10000x128_S640000x1_S640000x128_1_0_0_1
        (broadcastInDim S10000x128 ![] Facts₀.bcast_S_S10000x128 (constant (F := Ideal) S_ .f32 0x00000000#32))
        (broadcastInDim S640000x1 ![0] Facts₀.bcast_S640000_S640000x1_0 x3)
        (msgArr x0 x1 x2 x3 x4 x5 x6 x7 x8 x9) := by
  unfold val_main_v31
  rw [ref_msg]
  rfl

end Cert.ReferenceIdeal.RefValue

end
-- ==== Proof.RefOut.lean ====
/-
  The reference program's result stage as the node update of Arrays: `outArr` of its aggregate stage. The concatenation
  of the node table with the aggregate along the columns meets the first dense layer through `lin_cat2_bands`.
-/
import proofs.«405827_j62749472195028_1_alg».proof.Proof.Gen.ReferenceIdeal.Read
import proofs.«405827_j62749472195028_1_alg».proof.Proof.Arrays
import proofs.«405827_j62749472195028_1_alg».proof.Proof.LibConcatCols
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefOut

open Cert.ReferenceIdeal Cert.ReferenceIdeal.Read Cert.MsgPass
open Idealize.ShloMosaic Idealize.ShloMosaic.ValueIdx
open scoped BigOperators

variable (x0 : Arr 10000 128) (x1 : Arr 640000 128) (x2 x3 : Words 640000) (x4 : Arr 384 128) (x5 : Arr1 128)
  (x6 : Arr 128 128) (x7 : Arr1 128) (x8 : Arr 128 128) (x9 : Arr1 128) (x10 : Arr 256 128) (x11 : Arr1 128)
  (x12 : Arr 128 128) (x13 : Arr1 128) (x14 : Arr 128 128) (x15 : Arr1 128) (x16 : Arr 128 128) (x17 x18 : Arr1 128)

/-! ## The rows broadcast over the nodes, and the zero the positive parts are taken against -/

theorem v35_at (n : Fin 10000) (j : Fin 128) : val_main_v35 (F := Ideal) x11 (ix2 n j) = vec x11 j := by
  rw [val_main_v35_apply, val_main_v34_apply]
  exact congrArg x11 (funext fun a => Fin.ext (by match a with | ⟨0, _⟩ => rfl))

theorem v40_at (n : Fin 10000) (j : Fin 128) : val_main_v40 (F := Ideal) x13 (ix2 n j) = vec x13 j := by
  rw [val_main_v40_apply, val_main_v39_apply]
  exact congrArg x13 (funext fun a => Fin.ext (by match a with | ⟨0, _⟩ => rfl))

theorem v45_at (n : Fin 10000) (j : Fin 128) : val_main_v45 (F := Ideal) x15 (ix2 n j) = vec x15 j := by
  rw [val_main_v45_apply, val_main_v44_apply]
  exact congrArg x15 (funext fun a => Fin.ext (by match a with | ⟨0, _⟩ => rfl))

theorem v68_at (n : Fin 10000) (j : Fin 128) : val_main_v68 (F := Ideal) x17 (ix2 n j) = vec x17 j := by
  rw [val_main_v68_apply, val_main_v67_apply]
  exact congrArg x17 (funext fun a => Fin.ext (by match a with | ⟨0, _⟩ => rfl))

theorem v71_at (n : Fin 10000) (j : Fin 128) : val_main_v71 (F := Ideal) x18 (ix2 n j) = vec x18 j := by
  rw [val_main_v71_apply, val_main_v70_apply]
  exact congrArg x18 (funext fun a => Fin.ext (by match a with | ⟨0, _⟩ => rfl))

theorem call2_at (i : S10000x128.Idx) : val_main_call2_v0 (F := Ideal) i = 0 := by
  rw [val_main_call2_v0_apply, val_main_call2_cst_apply]
  exact Ideal.ofBits_zero_f32

theorem call3_at (i : S10000x128.Idx) : val_main_call3_v0 (F := Ideal) i = 0 := by
  rw [val_main_call3_v0_apply, val_main_call3_cst_apply]
  exact Ideal.ofBits_zero_f32

/-! ## The perceptron -/

/-- The node table beside the aggregate: node n's row is its old features followed by its aggregate. -/
theorem v32_at (n : Fin 10000) (k : Fin 256) :
    val_main_v32 (F := Ideal) x0 x1 x2 x3 x4 x5 x6 x7 x8 x9 (ix2 n k) = cat2 (rowAt x0 n) (rowAt (val_main_v31 (F := Ideal) x0 x1 x2 x3 x4 x5 x6 x7 x8 x9) n) k := by
  unfold val_main_v32
  generalize val_main_v31 (F := Ideal) x0 x1 x2 x3 x4 x5 x6 x7 x8 x9 = agg
  unfold cat2
  by_cases h : k.val < 128
  · rw [dif_pos h]
    exact concatenate_pair_apply_left 1 x0 agg _ (ix2 n k) rfl (ix2 n ⟨k.val, h⟩)
      (fun b => by match b with | ⟨0, _⟩ => rfl | ⟨1, _⟩ => rfl)
  · rw [dif_neg h]
    exact concatenate_pair_apply_right 1 x0 agg _ (ix2 n k) rfl rfl (ix2 n ⟨k.val - 128, by have := k.isLt; omega⟩)
      (fun b hb => by match b with | ⟨0, _⟩ => rfl | ⟨1, _⟩ => exact absurd rfl hb)
      (by show (k.val - 128) + 128 = k.val; omega)

/-- The first layer's product: the two pieces against the two bands of the weight. -/
theorem v33_at (n : Fin 10000) (j : Fin 128) : val_main_v33 (F := Ideal) x0 x1 x2 x3 x4 x5 x6 x7 x8 x9 x10 (ix2 n j) = (lin2 (rowAt x0 n) (rowAt (val_main_v31 (F := Ideal) x0 x1 x2 x3 x4 x5 x6 x7 x8 x9) n) (band0 (by omega) (mat x10)) (band1 (by omega) (mat x10))) j := by
  rw [val_main_v33_apply]
  refine Eq.trans ?_ (lin_cat2_bands (rowAt x0 n) (rowAt (val_main_v31 (F := Ideal) x0 x1 x2 x3 x4 x5 x6 x7 x8 x9) n) (mat x10) j)
  unfold lin
  refine Finset.sum_congr rfl fun k _ => ?_
  have e1 : lidx_main_v33 (ix2 n j) k = ix2 n k := funext fun a => Fin.ext (by match a with | ⟨0, _⟩ => rfl | ⟨1, _⟩ => rfl)
  have e2 : ridx_main_v33 (ix2 n j) k = ix2 k j := funext fun a => Fin.ext (by match a with | ⟨0, _⟩ => rfl | ⟨1, _⟩ => rfl)
  rw [e1, e2, v32_at]
  rfl

theorem v37_at (n : Fin 10000) (j : Fin 128) : val_main_v37 (F := Ideal) x0 x1 x2 x3 x4 x5 x6 x7 x8 x9 x10 x11 (ix2 n j) = (relu fun j => (lin2 (rowAt x0 n) (rowAt (val_main_v31 (F := Ideal) x0 x1 x2 x3 x4 x5 x6 x7 x8 x9) n) (band0 (by omega) (mat x10)) (band1 (by omega) (mat x10))) j + vec x11 j) j := by
  rw [val_main_v37_apply, val_main_v36_apply, v33_at, v35_at, call2_at]
  rfl

/-- The second layer's product. -/
theorem v38_at (n : Fin 10000) (j : Fin 128) : val_main_v38 (F := Ideal) x0 x1 x2 x3 x4 x5 x6 x7 x8 x9 x10 x11 x12 (ix2 n j) = lin (relu fun j => (lin2 (rowAt x0 n) (rowAt (val_main_v31 (F := Ideal) x0 x1 x2 x3 x4 x5 x6 x7 x8 x9) n) (band0 (by omega) (mat x10)) (band1 (by omega) (mat x10))) j + vec x11 j) (mat x12) j := by
  rw [val_main_v38_apply]
  unfold lin
  refine Finset.sum_congr rfl fun k _ => ?_
  have e1 : lidx_main_v38 (ix2 n j) k = ix2 n k := funext fun a => Fin.ext (by match a with | ⟨0, _⟩ => rfl | ⟨1, _⟩ => rfl)
  have e2 : ridx_main_v38 (ix2 n j) k = ix2 k j := funext fun a => Fin.ext (by match a with | ⟨0, _⟩ => rfl | ⟨1, _⟩ => rfl)
  rw [e1, e2, v37_at]
  rfl

theorem v42_at (n : Fin 10000) (j : Fin 128) : val_main_v42 (F := Ideal) x0 x1 x2 x3 x4 x5 x6 x7 x8 x9 x10 x11 x12 x13 (ix2 n j) = (relu fun j => lin (relu fun j => (lin2 (rowAt x0 n) (rowAt (val_main_v31 (F := Ideal) x0 x1 x2 x3 x4 x5 x6 x7 x8 x9) n) (band0 (by omega) (mat x10)) (band1 (by omega) (mat x10))) j + vec x11 j) (mat x12) j + vec x13 j) j := by
  rw [val_main_v42_apply, val_main_v41_apply, v38_at, v40_at, call3_at]
  rfl

/-- The last layer's product. -/
theorem v43_at (n : Fin 10000) (j : Fin 128) : val_main_v43 (F := Ideal) x0 x1 x2 x3 x4 x5 x6 x7 x8 x9 x10 x11 x12 x13 x14 (ix2 n j) = lin (relu fun j => lin (relu fun j => (lin2 (rowAt x0 n) (rowAt (val_main_v31 (F := Ideal) x0 x1 x2 x3 x4 x5 x6 x7 x8 x9) n) (band0 (by omega) (mat x10)) (band1 (by omega) (mat x10))) j + vec x11 j) (mat x12) j + vec x13 j) (mat x14) j := by
  rw [val_main_v43_apply]
  unfold lin
  refine Finset.sum_congr rfl fun k _ => ?_
  have e1 : lidx_main_v43 (ix2 n j) k = ix2 n k := funext fun a => Fin.ext (by match a with | ⟨0, _⟩ => rfl | ⟨1, _⟩ => rfl)
  have e2 : ridx_main_v43 (ix2 n j) k = ix2 k j := funext fun a => Fin.ext (by match a with | ⟨0, _⟩ => rfl | ⟨1, _⟩ => rfl)
  rw [e1, e2, v42_at]
  rfl

/-- The residual product. -/
theorem v47_at (n : Fin 10000) (j : Fin 128) : val_main_v47 (F := Ideal) x0 x16 (ix2 n j) = lin (rowAt x0 n) (mat x16) j := by
  rw [val_main_v47_apply]
  unfold lin
  refine Finset.sum_congr rfl fun k _ => ?_
  have e1 : lidx_main_v47 (ix2 n j) k = ix2 n k := funext fun a => Fin.ext (by match a with | ⟨0, _⟩ => rfl | ⟨1, _⟩ => rfl)
  have e2 : ridx_main_v47 (ix2 n j) k = ix2 k j := funext fun a => Fin.ext (by match a with | ⟨0, _⟩ => rfl | ⟨1, _⟩ => rfl)
  rw [e1, e2]
  rfl

/-- What is normalised: the residual product plus the perceptron. -/
theorem v48_at (n : Fin 10000) (j : Fin 128) : val_main_v48 (F := Ideal) x0 x1 x2 x3 x4 x5 x6 x7 x8 x9 x10 x11 x12 x13 x14 x15 x16 (ix2 n j) = (fun j => lin (rowAt x0 n) (mat x16) j + mlpTail (lin2 (rowAt x0 n) (rowAt (val_main_v31 (F := Ideal) x0 x1 x2 x3 x4 x5 x6 x7 x8 x9) n) (band0 (by omega) (mat x10)) (band1 (by omega) (mat x10))) (vec x11) (mat x12) (vec x13) (mat x14) (vec x15) j) j := by
  rw [val_main_v48_apply, val_main_v46_apply, v47_at, v43_at, v45_at]
  rfl

/-! ## The normalisation -/

/-- The mean of row n, as the subtraction reads it. -/
theorem v60_at (n : Fin 10000) (j : Fin 128) : val_main_v60 (F := Ideal) x0 x1 x2 x3 x4 x5 x6 x7 x8 x9 x10 x11 x12 x13 x14 x15 x16 (ix2 n j) = (Ideal.div (∑ k : Fin 128, val_main_v48 (F := Ideal) x0 x1 x2 x3 x4 x5 x6 x7 x8 x9 x10 x11 x12 x13 x14 x15 x16 (ix2 n k)) c128) := by
  rw [val_main_v60_apply, val_main_v52_apply, val_main_v50_apply, val_main_v49_apply, val_main_v51_apply,
    val_main_cst_3_apply, val_main_cst_4_apply]
  show Ideal.div (Ideal.ofBits .f32 0x00000000#32 + _) _ = _
  rw [Ideal.ofBits_zero_f32, zero_add]
  refine congrArg (fun s => Ideal.div s c128) (Finset.sum_congr rfl fun k _ => ?_)
  exact congrArg (val_main_v48 (F := Ideal) x0 x1 x2 x3 x4 x5 x6 x7 x8 x9 x10 x11 x12 x13 x14 x15 x16) (funext fun a => Fin.ext (by match a with | ⟨0, _⟩ => rfl | ⟨1, _⟩ => rfl))

/-- The same mean, as the variance's subtraction reads it. -/
theorem v53_at (n : Fin 10000) (j : Fin 128) : val_main_v53 (F := Ideal) x0 x1 x2 x3 x4 x5 x6 x7 x8 x9 x10 x11 x12 x13 x14 x15 x16 (ix2 n j) = (Ideal.div (∑ k : Fin 128, val_main_v48 (F := Ideal) x0 x1 x2 x3 x4 x5 x6 x7 x8 x9 x10 x11 x12 x13 x14 x15 x16 (ix2 n k)) c128) := by
  rw [val_main_v53_apply, val_main_v52_apply, val_main_v50_apply, val_main_v49_apply, val_main_v51_apply,
    val_main_cst_3_apply, val_main_cst_4_apply]
  show Ideal.div (Ideal.ofBits .f32 0x00000000#32 + _) _ = _
  rw [Ideal.ofBits_zero_f32, zero_add]
  refine congrArg (fun s => Ideal.div s c128) (Finset.sum_congr rfl fun k _ => ?_)
  exact congrArg (val_main_v48 (F := Ideal) x0 x1 x2 x3 x4 x5 x6 x7 x8 x9 x10 x11 x12 x13 x14 x15 x16) (funext fun a => Fin.ext (by match a with | ⟨0, _⟩ => rfl | ⟨1, _⟩ => rfl))

/-- The reciprocal root of row n's guarded variance. -/
theorem v65_at (n : Fin 10000) (j : Fin 128) : val_main_v65 (F := Ideal) x0 x1 x2 x3 x4 x5 x6 x7 x8 x9 x10 x11 x12 x13 x14 x15 x16 (ix2 n j)
    = Ideal.rsqrt (Ideal.div (∑ k : Fin 128, (val_main_v48 (F := Ideal) x0 x1 x2 x3 x4 x5 x6 x7 x8 x9 x10 x11 x12 x13 x14 x15 x16 (ix2 n k) - (Ideal.div (∑ k : Fin 128, val_main_v48 (F := Ideal) x0 x1 x2 x3 x4 x5 x6 x7 x8 x9 x10 x11 x12 x13 x14 x15 x16 (ix2 n k)) c128)) * (val_main_v48 (F := Ideal) x0 x1 x2 x3 x4 x5 x6 x7 x8 x9 x10 x11 x12 x13 x14 x15 x16 (ix2 n k) - (Ideal.div (∑ k : Fin 128, val_main_v48 (F := Ideal) x0 x1 x2 x3 x4 x5 x6 x7 x8 x9 x10 x11 x12 x13 x14 x15 x16 (ix2 n k)) c128))) c128 + eps) := by
  rw [val_main_v65_apply, val_main_v64_apply, val_main_v63_apply, val_main_v59_apply, val_main_v57_apply,
    val_main_v56_apply, val_main_v58_apply, val_main_v62_apply, val_main_cst_5_apply, val_main_cst_6_apply,
    val_main_cst_7_apply]
  show Ideal.rsqrt (Ideal.div (Ideal.ofBits .f32 0x00000000#32 + _) _ + _) = _
  rw [Ideal.ofBits_zero_f32, zero_add]
  refine congrArg (fun s => Ideal.rsqrt (Ideal.div s c128 + eps)) (Finset.sum_congr rfl fun k _ => ?_)
  have e : idx_main_v56 (idx_main_v57 (idx_main_v65 (ix2 n j))) k = ix2 n k := funext fun a => Fin.ext (by match a with | ⟨0, _⟩ => rfl | ⟨1, _⟩ => rfl)
  rw [e, val_main_v55_apply, val_main_v54_apply, v53_at]
  rfl

/-- The result stage at node n is the layer normalisation of what stage 48 holds in row n. -/
theorem v72_at (n : Fin 10000) (j : Fin 128) : val_main_v72 (F := Ideal) x0 x1 x2 x3 x4 x5 x6 x7 x8 x9 x10 x11 x12 x13 x14 x15 x16 x17 x18 (ix2 n j)
    = layerNorm c128 eps (fun k => val_main_v48 (F := Ideal) x0 x1 x2 x3 x4 x5 x6 x7 x8 x9 x10 x11 x12 x13 x14 x15 x16 (ix2 n k)) (vec x17) (vec x18) j := by
  rw [val_main_v72_apply, val_main_v69_apply, val_main_v66_apply, val_main_v61_apply, v60_at, v65_at, v68_at, v71_at]
  rfl

/-- The result stage (main_v72) is `outArr` of the aggregate stage (main_v31). -/
theorem ref_out : (val_main_v72 (F := Ideal) x0 x1 x2 x3 x4 x5 x6 x7 x8 x9 x10 x11 x12 x13 x14 x15 x16 x17 x18 : Arr 10000 128)
    = outArr (val_main_v31 (F := Ideal) x0 x1 x2 x3 x4 x5 x6 x7 x8 x9) x0 x10 x11 x12 x13 x14 x15 x16 x17 x18 := by
  funext i
  obtain ⟨n, j, rfl⟩ : ∃ (n : Fin 10000) (j : Fin 128), i = ix2 n j := ⟨i 0, i 1, eq_ix2 i⟩
  unfold outArr
  rw [arr2_ix2, v72_at]
  unfold outAt nodeRow
  exact congrArg (fun x => layerNorm c128 eps x (vec x17) (vec x18) j) (funext fun k => v48_at x0 x1 x2 x3 x4 x5 x6 x7 x8 x9 x10 x11 x12 x13 x14 x15 x16 n k)

end Cert.ReferenceIdeal.RefOut

end
-- ==== Proof.lean ====
/-
  One message-passing step on a graph: the Pallas kernels against the jnp reference, over the extended reals.

  Both programs gather each edge's sender and receiver rows from the node table, run a three-layer perceptron on them
  and on the edge's features, sum the messages into their receivers' rows, and run a second perceptron with a residual
  product and a layer normalisation on every node. They differ in three ways, none of which changes a value:
  the kernels work on blocks of 2560 edges and of 1000 nodes that tile the arrays; they multiply the pieces of a
  concatenated row with the matching bands of the first weight and add the products, where the reference multiplies
  the concatenation (a sum over 384 or 256 positions is the sum of the sums over its spans of 128: Spec); and their
  gather carries a bounds mask with a fill value, which an index word in the table's range never chooses. The
  precondition states that range for the sender and the receiver words, which is where the reference's own gather
  indexes inside its table.

  Spec and Arrays state the step row by row and on whole arrays; Body reads the two kernel bodies at an entry; Entry0
  and Entry1 read what each kernel's region is entered with; Value0 and Value1 put the blocks together; RefValue and
  RefOut read the reference's stages; KernelRun is the kernel program's run with its result named.
-/
import proofs.«405827_j62749472195028_1_alg».proof.Defs
import proofs.«405827_j62749472195028_1_alg».proof.Proof.Gen.Kernel
import proofs.«405827_j62749472195028_1_alg».proof.Proof.Gen.Kernel.Skeleton
import proofs.«405827_j62749472195028_1_alg».proof.Proof.Gen.Kernel.Launch
import proofs.«405827_j62749472195028_1_alg».proof.Proof.Gen.Kernel.Points
import proofs.«405827_j62749472195028_1_alg».proof.Proof.Gen.Kernel.Frame
import proofs.«405827_j62749472195028_1_alg».proof.Proof.Gen.KernelIdeal
import proofs.«405827_j62749472195028_1_alg».proof.Proof.Gen.KernelIdeal.Skeleton
import proofs.«405827_j62749472195028_1_alg».proof.Proof.Gen.KernelIdeal.Launch
import proofs.«405827_j62749472195028_1_alg».proof.Proof.Gen.KernelIdeal.Points
import proofs.«405827_j62749472195028_1_alg».proof.Proof.Gen.KernelIdeal.Frame
import proofs.«405827_j62749472195028_1_alg».proof.Proof.Gen.ReferenceIdeal
import proofs.«405827_j62749472195028_1_alg».proof.Proof.Gen.Pre_finite_inputs
import proofs.«405827_j62749472195028_1_alg».proof.Proof.Gen.ReferenceIdeal.Run
import proofs.«405827_j62749472195028_1_alg».proof.Proof.Gen.ReferenceIdeal.Read
import proofs.«405827_j62749472195028_1_alg».proof.Proof.KernelRun
import proofs.«405827_j62749472195028_1_alg».proof.Proof.Value1
import proofs.«405827_j62749472195028_1_alg».proof.Proof.RefValue
import proofs.«405827_j62749472195028_1_alg».proof.Proof.RefOut
import Idealize.ShloMosaic.Adequacy
import Idealize.ShloMosaic.Init

noncomputable section

namespace Cert.Proof

open Idealize.ShloMosaic Idealize.ShloMosaic.ValueIdx Idealize.SL.Sem Cert.MsgPass

/-- The word-level kernel program runs and leaves its arguments alone: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments alone: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with every index word in the table's range, both programs end with the
    message-passing step's result `outK` of the arguments. -/
theorem algebraic : Cert.algebraic_KernelIdeal_ReferenceIdeal := by
  intro m ρ m' ρ' hpre hagree
  have hs : ∀ (c : Dev Cert.KernelIdeal.nD) (e : Fin 640000), InRange (Cert.KernelIdeal.Args.w2 m c (ix1 e)) :=
    fun c e => Cert.KernelIdeal.Entry1.pre_senders m c hpre e
  have hr : ∀ (c : Dev Cert.KernelIdeal.nD) (e : Fin 640000), InRange (Cert.KernelIdeal.Args.w3 m c (ix1 e)) :=
    fun c e => Cert.KernelIdeal.Entry1.pre_receivers m c hpre e
  refine ⟨fun c => Cert.KernelIdeal.Args.outK m c, ?_, ?_⟩
  · exact (θ_run Cert.KernelIdeal.defs _ _).mono
      (fun r h c => ⟨(h c).1.trans (Cert.KernelIdeal.Value.result_eq m ρ c (hs c) (hr c)), (h c).2⟩)
      (Cert.KernelIdeal.Run.run_main m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10, g11, g12, g13, g14, g15, g16, g17, g18⟩ := hagree c
    rw [Cert.ReferenceIdeal.Read.val_main_v72_eq, g0, g1, g2, g3, g4, g5, g6, g7, g8, g9, g10, g11, g12, g13, g14, g15, g16, g17, g18]
    refine (Cert.ReferenceIdeal.RefOut.ref_out _ _ _ _ _ _ _ _ _ _ _ _ _ _ _ _ _ _ _).trans ?_
    rw [Cert.ReferenceIdeal.RefValue.ref_agg]
    rfl

/-- The five claims, under the programs' stated facts. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
